-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg1 : IVec S1200000 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S1200000 32 := broadcastInDim S1200000 ![] bcast_S_S1200000 main_c_14
  let main_v40 : IVec S1200000 1 := cmpi .sge main_arg1 main_v39
  let main_c_15 : IVec S_ 32 := constantI S_ 32 100000#32
  let main_v41 : IVec S1200000 32 := broadcastInDim S1200000 ![] bcast_S_S1200000 main_c_15
  let main_v42 : IVec S1200000 1 := cmpi .slt main_arg1 main_v41
  let main_v43 : IVec S1200000 1 := andi main_v40 main_v42
  let main_c_16 : IVec S_ 1 := constantI S_ 1 1#1
  let main_v44 : IVec S_ 1 := (fun x v => Host.reduce IntOp.andi x v reducesTo_S1200000_S_d0 h_S_) main_v43 main_c_16
  let main_v45 : IVec S_ 1 := andi main_v38 main_v44
  main_v45

def fn_part1 {F : FTy → Type} [FloatOps F] (main_arg1 : IVec S1200000 32) (main_arg6 : FVec F S64x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg1 main_arg9 main_v33

def fn {F : FTy → Type} [FloatOps F] (main_arg0 : FVec F S100000x64 .f32) (main_arg1 : IVec S1200000 32) (main_arg2 : IVec S1200000 32) (main_arg3 : FVec F S1200000 .f32) (main_arg4 : FVec F S64x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg3
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S5000x64 : Shape := ⟨2, ![5000, 64]⟩
abbrev S1x1 : Shape := ⟨2, ![1, 1]⟩
abbrev S1200000x64 : Shape := ⟨2, ![1200000, 64]⟩
abbrev S10000x64 : Shape := ⟨2, ![10000, 64]⟩
abbrev S10000x1 : Shape := ⟨2, ![10000, 1]⟩
abbrev S1x64 : Shape := ⟨2, ![1, 64]⟩
abbrev S5000x1 : Shape := ⟨2, ![5000, 1]⟩

abbrev nBuf : Space → Nat
  | .hbm => 135
  | .vmem => 60
  | .smem => 0
  | _ => 0

abbrev hbmTy0_0 (i : Nat) : BufTy := match i % 128 with
  | 0 => ⟨S100000x64, .f32⟩
  | 1 => ⟨S1200000, .i32⟩
  | 2 => ⟨S1200000, .i32⟩
  | 3 => ⟨S1200000, .f32⟩
  | 4 => ⟨S64x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S_, .f32⟩
  | 11 => ⟨S100000, .f32⟩
  | 12 => ⟨S1200000x1, .i32⟩
  | 13 => ⟨S100000, .f32⟩
  | 14 => ⟨S_, .f32⟩
  | 15 => ⟨S100000, .f32⟩
  | 16 => ⟨S100000, .f32⟩
  | 17 => ⟨S100000, .f32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000, .f32⟩
  | 27 => ⟨S1200000, .f32⟩
  | 28 => ⟨S_, .i32⟩
  | 29 => ⟨S1200000, .i32⟩
  | 30 => ⟨S1200000, .i1⟩
  | 31 => ⟨S_, .i32⟩
  | 32 => ⟨S1200000, .i32⟩
  | 33 => ⟨S1200000, .i32⟩
  | 34 => ⟨S1200000, .i32⟩
  | 35 => ⟨S1200000x1, .i32⟩
  | 36 => ⟨S1200000, .f32⟩
  | 37 => ⟨S1200000, .f32⟩
  | 38 => ⟨S100000, .f32⟩
  | 39 => ⟨S1200000x1, .f32⟩
  | 40 => ⟨S100000x1, .f32⟩
  | 41 => ⟨S100000x64, .f32⟩
  | 42 => ⟨S_, .i32⟩
  | 43 => ⟨S1200000, .i32⟩
  | 44 => ⟨S1200000, .i1⟩
  | 45 => ⟨S_, .i32⟩
  | 46 => ⟨S1200000, .i32⟩
  | 47 => ⟨S1200000, .i32⟩
  | 48 => ⟨S1200000, .i32⟩
  | 49 => ⟨S1200000x1, .i32⟩
  | 50 => ⟨S1, .i32⟩
  | 51 => ⟨S_, .i32⟩
  | 52 => ⟨S1200000x1, .i32⟩
  | 53 => ⟨S1200000x1, .i1⟩
  | 54 => ⟨S1x1, .i32⟩
  | 55 => ⟨S1200000x1, .i32⟩
  | 56 => ⟨S1200000x1, .i1⟩
  | 57 => ⟨S1200000x1, .i1⟩
  | 58 => ⟨S_, .i1⟩
  | 59 => ⟨S1200000, .i1⟩
  | 60 => ⟨S1200000x64, .f32⟩
  | 61 => ⟨S1200000x64, .i1⟩
  | 62 => ⟨S_, .f32⟩
  | 63 => ⟨S1200000x64, .f32⟩
  | 64 => ⟨S1200000x64, .f32⟩
  | 65 => ⟨S1200000x64, .f32⟩
  | 66 => ⟨S_, .f32⟩
  | 67 => ⟨S100000x64, .f32⟩
  | 68 => ⟨S1200000x1, .i32⟩
  | 69 => ⟨S100000x64, .f32⟩
  | 70 => ⟨S1x64, .f32⟩
  | 71 => ⟨S100000x64, .f32⟩
  | 72 => ⟨S100000x64, .f32⟩
  | 73 => ⟨S_, .i32⟩
  | 74 => ⟨S1200000, .i32⟩
  | 75 => ⟨S1200000, .i1⟩
  | 76 => ⟨S_, .i32⟩
  | 77 => ⟨S1200000, .i32⟩
  | 78 => ⟨S1200000, .i32⟩
  | 79 => ⟨S1200000, .i32⟩
  | 80 => ⟨S1200000x1, .i32⟩
  | 81 => ⟨S1, .i32⟩
  | 82 => ⟨S_, .i32⟩
  | 83 => ⟨S1200000x1, .i32⟩
  | 84 => ⟨S1200000x1, .i1⟩
  | 85 => ⟨S1x1, .i32⟩
  | 86 => ⟨S1200000x1, .i32⟩
  | 87 => ⟨S1200000x1, .i1⟩
  | 88 => ⟨S1200000x1, .i1⟩
  | 89 => ⟨S_, .i1⟩
  | 90 => ⟨S1200000, .i1⟩
  | 91 => ⟨S1200000x64, .f32⟩
  | 92 => ⟨S1200000x64, .i1⟩
  | 93 => ⟨S_, .f32⟩
  | 94 => ⟨S1200000x64, .f32⟩
  | 95 => ⟨S1200000x64, .f32⟩
  | 96 => ⟨S1200000x64, .f32⟩
  | 97 => ⟨S_, .f32⟩
  | 98 => ⟨S100000x64, .f32⟩
  | 99 => ⟨S1200000x1, .i32⟩
  | 100 => ⟨S100000x64, .f32⟩
  | 101 => ⟨S1x64, .f32⟩
  | 102 => ⟨S100000x64, .f32⟩
  | 103 => ⟨S100000x1, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1, .i32⟩
  | 113 => ⟨S_, .i32⟩
  | 114 => ⟨S1200000x1, .i32⟩
  | 115 => ⟨S1200000x1, .i1⟩
  | 116 => ⟨S1x1, .i32⟩
  | 117 => ⟨S1200000x1, .i32⟩
  | 118 => ⟨S1200000x1, .i1⟩
  | 119 => ⟨S1200000x1, .i1⟩
  | 120 => ⟨S_, .i1⟩
  | 121 => ⟨S1200000, .i1⟩
  | 122 => ⟨S1200000x1, .f32⟩
  | 123 => ⟨S1200000x1, .i1⟩
  | 124 => ⟨S_, .f32⟩
  | 125 => ⟨S1200000x1, .f32⟩
  | 126 => ⟨S1200000x1, .f32⟩
  | 127 => ⟨S1200000x1, .f32⟩
  | _ => ⟨S100000x64, .f32⟩

abbrev hbmTy0_1 (i : Nat) : BufTy := match i % 128 with
  | 0 => ⟨S_, .f32⟩
  | 1 => ⟨S100000x1, .f32⟩
  | 2 => ⟨S1200000x1, .i32⟩
  | 3 => ⟨S100000x1, .f32⟩
  | 4 => ⟨S1x1, .f32⟩
  | 5 => ⟨S100000x1, .f32⟩
  | 6 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S10000x64, .f32⟩
  | .local _ .vmem, ⟨26, _⟩ => ⟨S10000x64, .f32⟩
  | .local _ .vmem, ⟨27, _⟩ => ⟨S10000x1, .f32⟩
  | .local _ .vmem, ⟨28, _⟩ => ⟨S10000x1, .f32⟩
  | .local _ .vmem, ⟨29, _⟩ => ⟨S10000x64, .f32⟩
  | .local _ .vmem, ⟨30, _⟩ => ⟨S10000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x1, .f32⟩
  | .local _ .vmem, ⟨43, _⟩ => ⟨S5000x1, .f32⟩
  | .local _ .vmem, ⟨44, _⟩ => ⟨S5000x1, .f32⟩
  | .local _ .vmem, ⟨45, _⟩ => ⟨S10000x1, .f32⟩
  | .local _ .vmem, ⟨46, _⟩ => ⟨S10000x1, .f32⟩
  | .local _ .vmem, ⟨47, _⟩ => ⟨S10000x1, .f32⟩
  | .local _ .vmem, ⟨48, _⟩ => ⟨S10000x1, .f32⟩
  | .local _ .vmem, ⟨49, _⟩ => ⟨S10000x1, .f32⟩
  | .local _ .vmem, ⟨50, _⟩ => ⟨S10000x1, .f32⟩
  | .local _ .vmem, ⟨51, _⟩ => ⟨S5000x1, .f32⟩
  | .local _ .vmem, ⟨52, _⟩ => ⟨S5000x1, .f32⟩
  | .local _ .vmem, ⟨53, _⟩ => ⟨S5000x1, .f32⟩
  | .local _ .vmem, ⟨54, _⟩ => ⟨S5000x1, .f32⟩
  | .local _ .vmem, ⟨55, _⟩ => ⟨S5000x1, .f32⟩
  | .local _ .vmem, ⟨56, _⟩ => ⟨S5000x1, .f32⟩
  | .local _ .vmem, ⟨57, _⟩ => ⟨S1x1, .f32⟩
  | .local _ .vmem, ⟨58, _⟩ => ⟨S5000x1, .f32⟩
  | .local _ .vmem, ⟨59, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v26 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v34 : Ref sig .tc := ⟨.hbm, 95, rfl⟩
abbrev main_v35 : Ref sig .tc := ⟨.hbm, 96, rfl⟩
abbrev main_cst_5 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v42 : Ref sig .tc := ⟨.hbm, 126, rfl⟩
abbrev main_v43 : Ref sig .tc := ⟨.hbm, 127, rfl⟩
abbrev main_cst_6 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg4_0 : Ref sig .tc := ⟨.vmem, 58, rfl⟩
abbrev cc8_stg4_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem4_0 : DmaSem sig := 58
abbrev cc8_sem4_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![120], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![120], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![120], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  shapeCasts_S1200000_S1200000x1 : S1200000.ShapeCasts S1200000x1
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x1_S5000x1_1_0_0_1_n_n_wf : DotDims.WF S5000x64 S64x1 S5000x1 [1] [0] [0] [1] [] []
  gather_S100000x1_S1200000x1_S1200000x1_1_0_n_n_0_1_11_wf : GatherDims.WF S100000x1 S1200000x1 S1200000x1 [1] [0] [] [0] [] 1 ![1, 1]
  scatter_S100000x1_S1200000x1_S1200000x1_1_0_0_1_wf : ScatterDims.WF S100000x1 S1200000x1 S1200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1200000x64.size a
  hwx1_0 : ∀ i : grid1.Coords, EltTy.bits .f32 = 32 ∨ (Rect.block (s := S1200000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1200000x1.size a
  hwx1_1 : ∀ i : grid1.Coords, EltTy.bits .f32 = 32 ∨ (Rect.block (s := S1200000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1200000x64.size a
  hwx1_2 : ∀ i : grid1.Coords, EltTy.bits .f32 = 32 ∨ (Rect.block (s := S1200000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1200000x64.size a
  hwx4_0 : ∀ i : grid4.Coords, EltTy.bits .f32 = 32 ∨ (Rect.block (s := S1200000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1200000x1.size a
  hwx4_1 : ∀ i : grid4.Coords, EltTy.bits .f32 = 32 ∨ (Rect.block (s := S1200000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1200000x64.size a
  hwx4_2 : ∀ i : grid4.Coords, EltTy.bits .f32 = 32 ∨ (Rect.block (s := S1200000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x1.size a ≤ S1200000x1.size a
  hwx7_0 : ∀ i : grid7.Coords, EltTy.bits .f32 = 32 ∨ (Rect.block (s := S1200000x1) S10000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1200000x1.size a
  hwx7_1 : ∀ i : grid7.Coords, EltTy.bits .f32 = 32 ∨ (Rect.block (s := S1200000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S1200000x1.size a
  hwx7_2 : ∀ i : grid7.Coords, EltTy.bits .f32 = 32 ∨ (Rect.block (s := S1200000x1) S10000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x1.size a ≤ S100000x1.size a
  hwx8_0 : ∀ i : grid8.Coords, EltTy.bits .f32 = 32 ∨ (Rect.block (s := S100000x1) S5000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .f32 = 32 ∨ (Rect.block (s := S100000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x1.size a ≤ S100000x1.size a
  hwx8_4 : ∀ i : grid8.Coords, EltTy.bits .f32 = 32 ∨ (Rect.block (s := S100000x1) S5000x1.size (cc8_transform_4 i) (hinb8_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S1200000x1_S1200000x1_1_0_n_n_0_1_11 : GatherDims S100000x1 S1200000x1 S1200000x1 where
  offsetDims := [1]
  collapsedSliceDims := [0]
  operandBatchingDims := []
  startIndicesBatchingDims := []
  startIndexMap := [0]
  indexVectorDim := 1
  sliceSizes := ![1, 1]
  wf := gather_S100000x1_S1200000x1_S1200000x1_1_0_n_n_0_1_11_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v32) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v34) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v38) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v24) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v39) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v40) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v40) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v41) S5000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v42) S10000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v23) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v43) S10000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v46) S5000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v41) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v24) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v47) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v48) S5000x1.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S1200000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S_, .f32⟩
  | .hbm, ⟨11, _⟩ => ⟨S100000, .f32⟩
  | .hbm, ⟨12, _⟩ => ⟨S1200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1200000, .i32⟩
  | .hbm, ⟨20, _⟩ => ⟨S1200000, .i1⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1200000, .i32⟩
  | .hbm, ⟨25, _⟩ => ⟨S1200000x1, .i32⟩
  | .hbm, ⟨26, _⟩ => ⟨S1200000, .f32⟩
  | .hbm, ⟨27, _⟩ => ⟨S1200000, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000, .f32⟩
  | .hbm, ⟨37, _⟩ => ⟨S1200000, .f32⟩
  | .hbm, ⟨38, _⟩ => ⟨S100000, .f32⟩
  | .hbm, ⟨39, _⟩ => ⟨S100000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S1200000x1, .f32⟩
  | .hbm, ⟨50, _⟩ => ⟨S1200000x64, .f32⟩
  | .hbm, ⟨51, _⟩ => ⟨S1200000x64, .f32⟩
  | .hbm, ⟨52, _⟩ => ⟨S_, .f32⟩
  | .hbm, ⟨53, _⟩ => ⟨S100000x64, .f32⟩
  | .hbm, ⟨54, _⟩ => ⟨S1200000x1, .i32⟩
  | .hbm, ⟨55, _⟩ => ⟨S100000x64, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1200000, .i32⟩
  | .hbm, ⟨69, _⟩ => ⟨S1200000, .i1⟩
  | .hbm, ⟨70, _⟩ => ⟨S_, .i32⟩
  | .hbm, ⟨71, _⟩ => ⟨S1200000, .i32⟩
  | .hbm, ⟨72, _⟩ => ⟨S1200000, .i32⟩
  | .hbm, ⟨73, _⟩ => ⟨S1200000, .i32⟩
  | .hbm, ⟨74, _⟩ => ⟨S1200000x1, .i32⟩
  | .hbm, ⟨75, _⟩ => ⟨S1200000x64, .f32⟩
  | .hbm, ⟨76, _⟩ => ⟨S1200000x1, .f32⟩
  | .hbm, ⟨77, _⟩ => ⟨S1200000x64, .f32⟩
  | .hbm, ⟨78, _⟩ => ⟨S1200000x64, .f32⟩
  | .hbm, ⟨79, _⟩ => ⟨S_, .f32⟩
  | .hbm, ⟨80, _⟩ => ⟨S100000x64, .f32⟩
  | .hbm, ⟨81, _⟩ => ⟨S1200000x1, .i32⟩
  | .hbm, ⟨82, _⟩ => ⟨S100000x64, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x1, .f32⟩
  | .hbm, ⟨94, _⟩ => ⟨S_, .i32⟩
  | .hbm, ⟨95, _⟩ => ⟨S1200000, .i32⟩
  | .hbm, ⟨96, _⟩ => ⟨S1200000, .i1⟩
  | .hbm, ⟨97, _⟩ => ⟨S_, .i32⟩
  | .hbm, ⟨98, _⟩ => ⟨S1200000, .i32⟩
  | .hbm, ⟨99, _⟩ => ⟨S1200000, .i32⟩
  | .hbm, ⟨100, _⟩ => ⟨S1200000, .i32⟩
  | .hbm, ⟨101, _⟩ => ⟨S1200000x1, .i32⟩
  | .hbm, ⟨102, _⟩ => ⟨S1200000x1, .f32⟩
  | .hbm, ⟨103, _⟩ => ⟨S1200000x1, .f32⟩
  | .hbm, ⟨104, _⟩ => ⟨S1200000x1, .f32⟩
  | .hbm, ⟨105, _⟩ => ⟨S_, .f32⟩
  | .hbm, ⟨106, _⟩ => ⟨S100000x1, .f32⟩
  | .hbm, ⟨107, _⟩ => ⟨S1200000x1, .i32⟩
  | .hbm, ⟨108, _⟩ => ⟨S100000x1, .f32⟩
  | .hbm, ⟨109, _⟩ => ⟨S100000x1, .f32⟩
  | .hbm, ⟨110, _⟩ => ⟨S100000x1, .f32⟩
  | .hbm, ⟨111, _⟩ => ⟨S100000x1, .f32⟩
  | .hbm, ⟨112, _⟩ => ⟨S1x1, .f32⟩
  | .hbm, ⟨113, _⟩ => ⟨S100000x1, .f32⟩
  | .hbm, ⟨114, _⟩ => ⟨S100000x1, .f32⟩
  | .hbm, ⟨115, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call1_cst : Ref sig .tc := ⟨.hbm, 90, rfl⟩
abbrev main_call1_v0 : Ref sig .tc := ⟨.hbm, 91, rfl⟩
abbrev main_v66 : Ref sig .tc := ⟨.hbm, 92, rfl⟩
abbrev main_v67 : Ref sig .tc := ⟨.hbm, 93, rfl⟩
abbrev main_c_10 : Ref sig .tc := ⟨.hbm, 94, rfl⟩
abbrev main_v68 : Ref sig .tc := ⟨.hbm, 95, rfl⟩
abbrev main_v69 : Ref sig .tc := ⟨.hbm, 96, rfl⟩
abbrev main_c_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x1_S100000x1_1_0_0_1_n_n_wf : DotDims.WF S100000x64 S64x1 S100000x1 [1] [0] [0] [1] [] []
  gather_S100000x1_S1200000x1_S1200000x1_1_0_n_n_0_1_11_wf : GatherDims.WF S100000x1 S1200000x1 S1200000x1 [1] [0] [] [0] [] 1 ![1, 1]
  scatter_S100000x1_S1200000x1_S1200000x1_1_0_0_1_wf : ScatterDims.WF S100000x1 S1200000x1 S1200000x1 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1200000x1_S1200000x1_1_0_n_n_0_1_11 : GatherDims S100000x1 S1200000x1 S1200000x1 where
  offsetDims := [1]
  collapsedSliceDims := [0]
  operandBatchingDims := []
  startIndicesBatchingDims := []
  startIndexMap := [0]
  indexVectorDim := 1
  sliceSizes := ![1, 1]
  wf := gather_S100000x1_S1200000x1_S1200000x1_1_0_n_n_0_1_11_wf
def scatter_S100000x1_S1200000x1_S1200000x1_1_0_0_1 : ScatterDims S100000x1 S1200000x1 S1200000x1 where
  updateWindowDims := [1]
  insertedWindowDims := [0]
  scatterDimsToOperandDims := [0]
  indexVectorDim := 1
  wf := scatter_S100000x1_S1200000x1_S1200000x1_1_0_0_1_wf

class Facts : Prop extends Facts₀ where

variable [Facts]
-- ==== Proof.KernelKeep.lean ====
/- Which buffers each segment of the program leaves alone: a buffer that a host stretch does not write, that is not
  among a region's arrays, or that a region only reads, holds after the segment what it held before. Chained from the
  launch, this reads every argument array, and every intermediate array that a later segment consumes, at the
  boundary where it is consumed.
-/
import proofs.«409193_j64836826301090_2_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

/-- A host stretch keeps a buffer none of its operations writes. -/
macro "keepH " ops:ident : term =>
  `(StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

/-! ## The argument arrays, where they are read -/

theorem W1_arg0 (c : Dev nD) : W1 m ρ c (Proc.devRef .tc main_arg0) = (m ((c : Thread nD τ).loc main_arg0)) :=
  calc W1 m ρ c (Proc.devRef .tc main_arg0)
    _ = W0 m ρ c (Proc.devRef .tc main_arg0) := keepH hostOps0
    _ = (m ((c : Thread nD τ).loc main_arg0)) := rfl

theorem W1_arg4 (c : Dev nD) : W1 m ρ c (Proc.devRef .tc main_arg4) = (m ((c : Thread nD τ).loc main_arg4)) :=
  calc W1 m ρ c (Proc.devRef .tc main_arg4)
    _ = W0 m ρ c (Proc.devRef .tc main_arg4) := keepH hostOps0
    _ = (m ((c : Thread nD τ).loc main_arg4)) := rfl

theorem W2_arg1 (c : Dev nD) : W2 m ρ c (Proc.devRef .tc main_arg1) = (m ((c : Thread nD τ).loc main_arg1)) :=
  calc W2 m ρ c (Proc.devRef .tc main_arg1)
    _ = W1 m ρ c (Proc.devRef .tc main_arg1) := W2_of_ne m ρ c main_arg1 (by decide)
    _ = W0 m ρ c (Proc.devRef .tc main_arg1) := keepH hostOps0
    _ = (m ((c : Thread nD τ).loc main_arg1)) := rfl

theorem W7_arg1 (c : Dev nD) : W7 m ρ c (Proc.devRef .tc main_arg1) = (m ((c : Thread nD τ).loc main_arg1)) :=
  calc W7 m ρ c (Proc.devRef .tc main_arg1)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := keepH hostOps2
    _ = W3 m ρ c (Proc.devRef .tc main_arg1) := W4_of_ne m ρ c main_arg1 (by decide)
    _ = W2 m ρ c (Proc.devRef .tc main_arg1) := keepH hostOps1
    _ = (m ((c : Thread nD τ).loc main_arg1)) := W2_arg1 m ρ c

theorem W12_arg1 (c : Dev nD) : W12 m ρ c (Proc.devRef .tc main_arg1) = (m ((c : Thread nD τ).loc main_arg1)) :=
  calc W12 m ρ c (Proc.devRef .tc main_arg1)
    _ = W11 m ρ c (Proc.devRef .tc main_arg1) := W12_of_ne m ρ c main_arg1 (by decide)
    _ = W10 m ρ c (Proc.devRef .tc main_arg1) := W11_of_ne m ρ c main_arg1 (by decide)
    _ = W9 m ρ c (Proc.devRef .tc main_arg1) := keepH hostOps5
    _ = W8 m ρ c (Proc.devRef .tc main_arg1) := W9_of_ne m ρ c main_arg1 (by decide)
    _ = W7 m ρ c (Proc.devRef .tc main_arg1) := keepH hostOps4
    _ = (m ((c : Thread nD τ).loc main_arg1)) := W7_arg1 m ρ c

theorem W4_arg2 (c : Dev nD) : W4 m ρ c (Proc.devRef .tc main_arg2) = (m ((c : Thread nD τ).loc main_arg2)) :=
  calc W4 m ρ c (Proc.devRef .tc main_arg2)
    _ = W3 m ρ c (Proc.devRef .tc main_arg2) := W4_of_ne m ρ c main_arg2 (by decide)
    _ = W2 m ρ c (Proc.devRef .tc main_arg2) := keepH hostOps1
    _ = W1 m ρ c (Proc.devRef .tc main_arg2) := W2_of_ne m ρ c main_arg2 (by decide)
    _ = W0 m ρ c (Proc.devRef .tc main_arg2) := keepH hostOps0
    _ = (m ((c : Thread nD τ).loc main_arg2)) := rfl

theorem W9_arg2 (c : Dev nD) : W9 m ρ c (Proc.devRef .tc main_arg2) = (m ((c : Thread nD τ).loc main_arg2)) :=
  calc W9 m ρ c (Proc.devRef .tc main_arg2)
    _ = W8 m ρ c (Proc.devRef .tc main_arg2) := W9_of_ne m ρ c main_arg2 (by decide)
    _ = W7 m ρ c (Proc.devRef .tc main_arg2) := keepH hostOps4
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := keepH hostOps2
    _ = (m ((c : Thread nD τ).loc main_arg2)) := W4_arg2 m ρ c

theorem W14_arg2 (c : Dev nD) : W14 m ρ c (Proc.devRef .tc main_arg2) = (m ((c : Thread nD τ).loc main_arg2)) :=
  calc W14 m ρ c (Proc.devRef .tc main_arg2)
    _ = W13 m ρ c (Proc.devRef .tc main_arg2) := W14_of_ne m ρ c main_arg2 (by decide)
    _ = W12 m ρ c (Proc.devRef .tc main_arg2) := keepH hostOps7
    _ = W11 m ρ c (Proc.devRef .tc main_arg2) := W12_of_ne m ρ c main_arg2 (by decide)
    _ = W10 m ρ c (Proc.devRef .tc main_arg2) := W11_of_ne m ρ c main_arg2 (by decide)
    _ = W9 m ρ c (Proc.devRef .tc main_arg2) := keepH hostOps5
    _ = (m ((c : Thread nD τ).loc main_arg2)) := W9_arg2 m ρ c

theorem W4_arg5 (c : Dev nD) : W4 m ρ c (Proc.devRef .tc main_arg5) = (m ((c : Thread nD τ).loc main_arg5)) :=
  calc W4 m ρ c (Proc.devRef .tc main_arg5)
    _ = W3 m ρ c (Proc.devRef .tc main_arg5) := W4_of_ne m ρ c main_arg5 (by decide)
    _ = W2 m ρ c (Proc.devRef .tc main_arg5) := keepH hostOps1
    _ = W1 m ρ c (Proc.devRef .tc main_arg5) := W2_of_ne m ρ c main_arg5 (by decide)
    _ = W0 m ρ c (Proc.devRef .tc main_arg5) := keepH hostOps0
    _ = (m ((c : Thread nD τ).loc main_arg5)) := rfl

theorem W9_arg7 (c : Dev nD) : W9 m ρ c (Proc.devRef .tc main_arg7) = (m ((c : Thread nD τ).loc main_arg7)) :=
  calc W9 m ρ c (Proc.devRef .tc main_arg7)
    _ = W8 m ρ c (Proc.devRef .tc main_arg7) := W9_of_ne m ρ c main_arg7 (by decide)
    _ = W7 m ρ c (Proc.devRef .tc main_arg7) := keepH hostOps4
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := keepH hostOps2
    _ = W3 m ρ c (Proc.devRef .tc main_arg7) := W4_of_ne m ρ c main_arg7 (by decide)
    _ = W2 m ρ c (Proc.devRef .tc main_arg7) := keepH hostOps1
    _ = W1 m ρ c (Proc.devRef .tc main_arg7) := W2_of_ne m ρ c main_arg7 (by decide)
    _ = W0 m ρ c (Proc.devRef .tc main_arg7) := keepH hostOps0
    _ = (m ((c : Thread nD τ).loc main_arg7)) := rfl

theorem W14_arg9 (c : Dev nD) : W14 m ρ c (Proc.devRef .tc main_arg9) = (m ((c : Thread nD τ).loc main_arg9)) :=
  calc W14 m ρ c (Proc.devRef .tc main_arg9)
    _ = W13 m ρ c (Proc.devRef .tc main_arg9) := W14_of_ne m ρ c main_arg9 (by decide)
    _ = W12 m ρ c (Proc.devRef .tc main_arg9) := keepH hostOps7
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := keepH hostOps5
    _ = W8 m ρ c (Proc.devRef .tc main_arg9) := W9_of_ne m ρ c main_arg9 (by decide)
    _ = W7 m ρ c (Proc.devRef .tc main_arg9) := keepH hostOps4
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := keepH hostOps2
    _ = W3 m ρ c (Proc.devRef .tc main_arg9) := W4_of_ne m ρ c main_arg9 (by decide)
    _ = W2 m ρ c (Proc.devRef .tc main_arg9) := keepH hostOps1
    _ = W1 m ρ c (Proc.devRef .tc main_arg9) := W2_of_ne m ρ c main_arg9 (by decide)
    _ = W0 m ρ c (Proc.devRef .tc main_arg9) := keepH hostOps0
    _ = (m ((c : Thread nD τ).loc main_arg9)) := rfl

theorem W6_arg6 (c : Dev nD) : W6 m ρ c (Proc.devRef .tc main_arg6) = (m ((c : Thread nD τ).loc main_arg6)) :=
  calc W6 m ρ c (Proc.devRef .tc main_arg6)
    _ = W5 m ρ c (Proc.devRef .tc main_arg6) := W6_of_ne m ρ c main_arg6 (by decide)
    _ = W4 m ρ c (Proc.devRef .tc main_arg6) := keepH hostOps2
    _ = W3 m ρ c (Proc.devRef .tc main_arg6) := W4_of_ne m ρ c main_arg6 (by decide)
    _ = W2 m ρ c (Proc.devRef .tc main_arg6) := keepH hostOps1
    _ = W1 m ρ c (Proc.devRef .tc main_arg6) := W2_of_ne m ρ c main_arg6 (by decide)
    _ = W0 m ρ c (Proc.devRef .tc main_arg6) := keepH hostOps0
    _ = (m ((c : Thread nD τ).loc main_arg6)) := rfl

theorem W11_arg8 (c : Dev nD) : W11 m ρ c (Proc.devRef .tc main_arg8) = (m ((c : Thread nD τ).loc main_arg8)) :=
  calc W11 m ρ c (Proc.devRef .tc main_arg8)
    _ = W10 m ρ c (Proc.devRef .tc main_arg8) := W11_of_ne m ρ c main_arg8 (by decide)
    _ = W9 m ρ c (Proc.devRef .tc main_arg8) := keepH hostOps5
    _ = W8 m ρ c (Proc.devRef .tc main_arg8) := W9_of_ne m ρ c main_arg8 (by decide)
    _ = W7 m ρ c (Proc.devRef .tc main_arg8) := keepH hostOps4
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := keepH hostOps2
    _ = W3 m ρ c (Proc.devRef .tc main_arg8) := W4_of_ne m ρ c main_arg8 (by decide)
    _ = W2 m ρ c (Proc.devRef .tc main_arg8) := keepH hostOps1
    _ = W1 m ρ c (Proc.devRef .tc main_arg8) := W2_of_ne m ρ c main_arg8 (by decide)
    _ = W0 m ρ c (Proc.devRef .tc main_arg8) := keepH hostOps0
    _ = (m ((c : Thread nD τ).loc main_arg8)) := rfl

/-! ## Intermediate arrays read again later -/

theorem W3_v23 (c : Dev nD) : W3 m ρ c (Proc.devRef .tc main_v23) = W1 m ρ c (Proc.devRef .tc main_v23) :=
  calc W3 m ρ c (Proc.devRef .tc main_v23)
    _ = W2 m ρ c (Proc.devRef .tc main_v23) := keepH hostOps1
    _ = W1 m ρ c (Proc.devRef .tc main_v23) := W2_of_ne m ρ c main_v23 (by decide)

theorem W8_v23 (c : Dev nD) : W8 m ρ c (Proc.devRef .tc main_v23) = W3 m ρ c (Proc.devRef .tc main_v23) :=
  calc W8 m ρ c (Proc.devRef .tc main_v23)
    _ = W7 m ρ c (Proc.devRef .tc main_v23) := keepH hostOps4
    _ = W6 m ρ c (Proc.devRef .tc main_v23) := W7_of_ne m ρ c main_v23 (by decide)
    _ = W5 m ρ c (Proc.devRef .tc main_v23) := W6_of_ne m ρ c main_v23 (by decide)
    _ = W4 m ρ c (Proc.devRef .tc main_v23) := keepH hostOps2
    _ = W3 m ρ c (Proc.devRef .tc main_v23) := (W4_arr m ρ c 1).trans (((dat1 (V3 m ρ) c).arrAt_in 1 rfl _).trans (A_eq1 (V3 m ρ) c 1))

theorem W13_v23 (c : Dev nD) : W13 m ρ c (Proc.devRef .tc main_v23) = W8 m ρ c (Proc.devRef .tc main_v23) :=
  calc W13 m ρ c (Proc.devRef .tc main_v23)
    _ = W12 m ρ c (Proc.devRef .tc main_v23) := keepH hostOps7
    _ = W11 m ρ c (Proc.devRef .tc main_v23) := W12_of_ne m ρ c main_v23 (by decide)
    _ = W10 m ρ c (Proc.devRef .tc main_v23) := W11_of_ne m ρ c main_v23 (by decide)
    _ = W9 m ρ c (Proc.devRef .tc main_v23) := keepH hostOps5
    _ = W8 m ρ c (Proc.devRef .tc main_v23) := (W9_arr m ρ c 1).trans (((dat4 (V8 m ρ) c).arrAt_in 1 rfl _).trans (A_eq4 (V8 m ρ) c 1))

theorem W5_v24 (c : Dev nD) : W5 m ρ c (Proc.devRef .tc main_v24) = W1 m ρ c (Proc.devRef .tc main_v24) :=
  calc W5 m ρ c (Proc.devRef .tc main_v24)
    _ = W4 m ρ c (Proc.devRef .tc main_v24) := keepH hostOps2
    _ = W3 m ρ c (Proc.devRef .tc main_v24) := W4_of_ne m ρ c main_v24 (by decide)
    _ = W2 m ρ c (Proc.devRef .tc main_v24) := keepH hostOps1
    _ = W1 m ρ c (Proc.devRef .tc main_v24) := W2_of_ne m ρ c main_v24 (by decide)

theorem W10_v24 (c : Dev nD) : W10 m ρ c (Proc.devRef .tc main_v24) = W5 m ρ c (Proc.devRef .tc main_v24) :=
  calc W10 m ρ c (Proc.devRef .tc main_v24)
    _ = W9 m ρ c (Proc.devRef .tc main_v24) := keepH hostOps5
    _ = W8 m ρ c (Proc.devRef .tc main_v24) := W9_of_ne m ρ c main_v24 (by decide)
    _ = W7 m ρ c (Proc.devRef .tc main_v24) := keepH hostOps4
    _ = W6 m ρ c (Proc.devRef .tc main_v24) := W7_of_ne m ρ c main_v24 (by decide)
    _ = W5 m ρ c (Proc.devRef .tc main_v24) := (W6_arr m ρ c 2).trans (((dat2 (V5 m ρ) c).arrAt_in 2 rfl _).trans (A_eq2 (V5 m ρ) c 2))

theorem W15_v24 (c : Dev nD) : W15 m ρ c (Proc.devRef .tc main_v24) = W10 m ρ c (Proc.devRef .tc main_v24) :=
  calc W15 m ρ c (Proc.devRef .tc main_v24)
    _ = W14 m ρ c (Proc.devRef .tc main_v24) := keepH hostOps8
    _ = W13 m ρ c (Proc.devRef .tc main_v24) := W14_of_ne m ρ c main_v24 (by decide)
    _ = W12 m ρ c (Proc.devRef .tc main_v24) := keepH hostOps7
    _ = W11 m ρ c (Proc.devRef .tc main_v24) := W12_of_ne m ρ c main_v24 (by decide)
    _ = W10 m ρ c (Proc.devRef .tc main_v24) := (W11_arr m ρ c 2).trans (((dat5 (V10 m ρ) c).arrAt_in 2 rfl _).trans (A_eq5 (V10 m ρ) c 2))

theorem W5_v25 (c : Dev nD) : W5 m ρ c (Proc.devRef .tc main_v25) = W2 m ρ c (Proc.devRef .tc main_v25) :=
  calc W5 m ρ c (Proc.devRef .tc main_v25)
    _ = W4 m ρ c (Proc.devRef .tc main_v25) := keepH hostOps2
    _ = W3 m ρ c (Proc.devRef .tc main_v25) := W4_of_ne m ρ c main_v25 (by decide)
    _ = W2 m ρ c (Proc.devRef .tc main_v25) := keepH hostOps1

theorem W10_v33 (c : Dev nD) : W10 m ρ c (Proc.devRef .tc main_v33) = W7 m ρ c (Proc.devRef .tc main_v33) :=
  calc W10 m ρ c (Proc.devRef .tc main_v33)
    _ = W9 m ρ c (Proc.devRef .tc main_v33) := keepH hostOps5
    _ = W8 m ρ c (Proc.devRef .tc main_v33) := W9_of_ne m ρ c main_v33 (by decide)
    _ = W7 m ρ c (Proc.devRef .tc main_v33) := keepH hostOps4

theorem W15_v41 (c : Dev nD) : W15 m ρ c (Proc.devRef .tc main_v41) = W12 m ρ c (Proc.devRef .tc main_v41) :=
  calc W15 m ρ c (Proc.devRef .tc main_v41)
    _ = W14 m ρ c (Proc.devRef .tc main_v41) := keepH hostOps8
    _ = W13 m ρ c (Proc.devRef .tc main_v41) := W14_of_ne m ρ c main_v41 (by decide)
    _ = W12 m ρ c (Proc.devRef .tc main_v41) := keepH hostOps7

end Cert.KernelIdeal.Fold

end
-- ==== Proof.Take.lean ====
/-
  The row gather "take with out-of-range rows filled" as the kernel's program spells it: a negative index is
  wrapped once by the table's length, the gather reads the row at the (clamped) wrapped index, and a row whose wrapped
  index falls outside [0, 99999] is replaced by a fill value.
-/
import proofs.«409193_j64836826301090_2_alg».proof.Proof.Gen.KernelIdeal

noncomputable section

namespace Cert.KernelIdeal.Take

open Cert.KernelIdeal Cert.KernelIdeal.Gen Idealize.ShloMosaic

variable {F : FTy → Type} [FloatOps F]

/-- The wrapped index column: `src + 100000` where `src < 0` (signed), else `src`. -/
def wrapIdx (src : IVec S1200000 32) : IVec S1200000x1 32 :=
  broadcastInDim S1200000x1 ![0] bcast_S1200000_S1200000x1_0
    (select (cmpi .slt src (broadcastInDim S1200000 ![] bcast_S_S1200000 (constantI S_ 32 0#32)))
      (addi src (broadcastInDim S1200000 ![] bcast_S_S1200000 (constantI S_ 32 100000#32))) src)

/-- Per edge, whether the wrapped index is a row of the table: `0 ≤ idx ≤ 99999` (signed). -/
def inRange (idx : IVec S1200000x1 32) : IVec S1200000 1 :=
  Host.reduce IntOp.andi
    (andi (cmpi .sge idx (broadcastInDim S1200000x1 ![] bcast_S_S1200000x1 (constantI S_ 32 0#32)))
      (cmpi .sle idx (broadcastInDim S1200000x1 ![0, 1] bcast_S1x1_S1200000x1_0_1
        (broadcastInDim S1x1 ![1] bcast_S1_S1x1_1 (constantI S1 32 99999#32)))))
    (constantI S_ 1 1#1) reducesTo_S1200000x1_S1200000_d1 h_S_

/-- The take of 64-feature rows. -/
def take64 (x : FVec F S100000x64 .f32) (src : IVec S1200000 32) : FVec F S1200000x64 .f32 :=
  select (broadcastInDim S1200000x64 ![0] bcast_S1200000_S1200000x64_0 (inRange (wrapIdx src)))
    (Host.gather gather_S100000x64_S1200000x1_S1200000x64_1_0_n_n_0_1_164 x (wrapIdx src))
    (broadcastInDim S1200000x64 ![] bcast_S_S1200000x64 (constant S_ .f32 0x7FC00000#32))

/-- The take of one-feature rows. -/
def take1 (x : FVec F S100000x1 .f32) (src : IVec S1200000 32) : FVec F S1200000x1 .f32 :=
  select (broadcastInDim S1200000x1 ![0] bcast_S1200000_S1200000x1_0 (inRange (wrapIdx src)))
    (Host.gather gather_S100000x1_S1200000x1_S1200000x1_1_0_n_n_0_1_11 x (wrapIdx src))
    (broadcastInDim S1200000x1 ![] bcast_S_S1200000x1 (constant S_ .f32 0x7FC00000#32))

end Cert.KernelIdeal.Take

end
-- ==== Proof.Spec.lean ====
/-
  What each stage of the graph convolution computes, index by index, on the arrays' literal shapes:
  the dense transform (a matrix product, one row of the node table against the weight matrix), the
  scaling of a gathered edge row by the edge's normalisation coefficient, and the combination of the
  aggregated messages with the self loop and the bias (followed by max(·, 0) on the hidden layers).
  Both programs are shown to compute these same functions; nothing here mentions either program.
-/
import Idealize.ShloMosaic.PureOps.Ideal
import Idealize.ShloMosaic.Lib.ValueIdx

noncomputable section

open scoped BigOperators

namespace Cert.Spec

open Idealize.ShloMosaic Idealize.ShloMosaic.ValueIdx

/-- node table, 64 features -/
abbrev SN64 : Shape := ⟨2, ![100000, 64]⟩
/-- node column -/
abbrev SN1 : Shape := ⟨2, ![100000, 1]⟩
/-- edge table, 64 features -/
abbrev SE64 : Shape := ⟨2, ![1200000, 64]⟩
/-- edge column -/
abbrev SE1 : Shape := ⟨2, ![1200000, 1]⟩
abbrev SW64 : Shape := ⟨2, ![64, 64]⟩
abbrev SW1 : Shape := ⟨2, ![64, 1]⟩
abbrev SB64 : Shape := ⟨2, ![1, 64]⟩
abbrev SB1 : Shape := ⟨2, ![1, 1]⟩

variable {F : FTy → Type} [FloatOps F]

/-- The dense transform into 64 features: (h·W)[i, j] = ∑ₖ h[i, k] · W[k, j]. -/
def mm64 (h : SN64.Idx → EReal) (W : SW64.Idx → EReal) : SN64.Idx → EReal :=
  fun i => ∑ k : Fin 64, h (ix2 (n0 := 100000) (n1 := 64) (i 0) k) * W (ix2 (n0 := 64) (n1 := 64) k (i 1))

/-- The dense transform into one feature: (h·W)[i, 0] = ∑ₖ h[i, k] · W[k, 0]. -/
def mm1 (h : SN64.Idx → EReal) (W : SW1.Idx → EReal) : SN1.Idx → EReal :=
  fun i => ∑ k : Fin 64, h (ix2 (n0 := 100000) (n1 := 64) (i 0) k) * W (ix2 (n0 := 64) (n1 := 1) k (i 1))

/-- An edge's gathered row times the edge's coefficient: msg[e, f] = g[e, f] · n[e, 0]. -/
def scale64 (g : SE64.Idx → Elt F .f32) (n : SE1.Idx → Elt F .f32) : SE64.Idx → Elt F .f32 :=
  fun i => FloatOps.mulf (g i) (n (ix2 (n0 := 1200000) (n1 := 1) (i 0) 0))

/-- The same on a one-feature edge column: msg[e, 0] = g[e, 0] · n[e, 0]. -/
def scale1 (g n : SE1.Idx → Elt F .f32) : SE1.Idx → Elt F .f32 :=
  fun i => FloatOps.mulf (g i) (n i)

/-- A hidden layer's output: max(agg[i, f] + h2[i, f] · s[i, 0] + b[0, f], 0). -/
def comb64 (agg h2 : SN64.Idx → Elt F .f32) (s : SN1.Idx → Elt F .f32) (b : SB64.Idx → Elt F .f32) : SN64.Idx → Elt F .f32 :=
  fun i => FloatOps.maximumf
    (FloatOps.addf (FloatOps.addf (agg i) (FloatOps.mulf (h2 i) (s (ix2 (n0 := 100000) (n1 := 1) (i 0) 0)))) (b (ix2 (n0 := 1) (n1 := 64) 0 (i 1))))
    (FloatOps.ofBits .f32 0x00000000#32)

/-- The last layer's output, no activation: agg[i, 0] + h2[i, 0] · s[i, 0] + b[0, 0]. -/
def comb1 (agg h2 s : SN1.Idx → Elt F .f32) (b : SB1.Idx → Elt F .f32) : SN1.Idx → Elt F .f32 :=
  fun i => FloatOps.addf (FloatOps.addf (agg i) (FloatOps.mulf (h2 i) (s i))) (b (ix2 (n0 := 1) (n1 := 1) 0 0))

end Cert.Spec

end
-- ==== Proof.Region0.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

/-- The zero offset of a whole-buffer rectangle, as the constant function. -/
theorem hz0 : (![0, 0] : Fin 2 → Nat) = fun _ => 0 := funext fun a => by fin_cases a <;> rfl

/-- The printed index maps over the grid's 20 points: the row-tiled windows' block row is the point, their block
    column 0; the weight window's block is (0, 0) at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The contraction's operand indices, axis by axis -/

/-- The left operand's row is the output's row. -/
theorem lhs0_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contracted index. -/
theorem lhs0_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contracted index. -/
theorem rhs0_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem rhs0_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- THE PAYLOAD AT AN INDEX: at the extended reals the narrowing casts are the identity and the product into the
    zero accumulator is the plain sum over the 64 contracted positions, row of the left block against column of the
    right one. -/
theorem pay0_apply (x0 : Vec Ideal S5000x64 .f32) (x1 : Vec Ideal S64x64 .f32) (j : S5000x64.Idx) :
    k0_pay1 (F := Ideal) x0 x1 j = ∑ k : Fin 64, x0 (ix2 (n0 := 5000) (n1 := 64) (j 0) k) * x1 (ix2 (n0 := 64) (n1 := 64) k (j 1)) := by
  unfold k0_pay1
  show FloatOps.matmul dot_S5000x64_S64x64_S5000x64_1_0_0_1_n_n none (truncf .bf16 x0 bitsLt_bf16_f32 : FVec Ideal S5000x64 .bf16) (truncf .bf16 x1 bitsLt_bf16_f32 : FVec Ideal S64x64 .bf16) (constant S5000x64 .f32 0x00000000#32) j = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = ix2 (n0 := 5000) (n1 := 64) (j 0) k := funext fun a => Fin.ext (by
    match a with
    | ⟨0, _⟩ => exact lhs0_0 _ _
    | ⟨1, _⟩ => exact (lhs0_1 _ _).trans hk)
  have er : dot_S5000x64_S64x64_S5000x64_1_0_0_1_n_n.rhsIdx j ((contrEquiv1 dot_S5000x64_S64x64_S5000x64_1_0_0_1_n_n 64 rfl rfl).symm k) = ix2 (n0 := 64) (n1 := 64) k (j 1) := funext fun a => Fin.ext (by
    match a with
    | ⟨0, _⟩ => exact (rhs0_0 _ _).trans hk
    | ⟨1, _⟩ => exact rhs0_1 _ _)
  rw [truncf_apply, truncf_apply, el, er]

/-! ## One grid point -/

/-- What point `t` computes at a block index `j`, from ANY two blocks that hold the arrays' entries at their windows'
    positions: the specification's row-by-column sum at the output block's position of `j` in the array. The left
    block's row `j 0` is the array's row `5000 * t + j 0`, the output's too; its columns are the array's; the right
    block is the whole weight array. -/
theorem point0 (A0 : S100000x64.Idx → EReal) (A1 : S64x64.Idx → EReal) (t : Fin cfg0.N)
    (x0 : Vec Ideal S5000x64 .f32) (x1 : Vec Ideal S64x64 .f32)
    (h0 : ∀ y, x0 y = A0 (((cfg0.win 0).blk t).view.emb y))
    (h1 : ∀ y, x1 y = A1 (((cfg0.win 1).blk t).view.emb y)) (j : S5000x64.Idx) :
    k0_pay1 (F := Ideal) x0 x1 j = Cert.Spec.mm64 A0 A1 (((cfg0.win 2).blk t).view.emb j) := by
  rw [pay0_apply]
  unfold Cert.Spec.mm64
  obtain ⟨e0, e1, e2, e3, e4, e5⟩ := idx_facts0 t
  refine Finset.sum_congr rfl fun k _ => ?_
  rw [h0, h1]
  have a0 : ((cfg0.win 0).blk t).view.emb (ix2 (n0 := 5000) (n1 := 64) (j 0) k)
      = ix2 (n0 := 100000) (n1 := 64) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have a1 : ((cfg0.win 1).blk t).view.emb (ix2 (n0 := 64) (n1 := 64) k (j 1))
      = ix2 (n0 := 64) (n1 := 64) k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [a0, a1]

/-- WHAT POINT `t` WRITES BACK: block `t` of the specification's product of the two input arrays as the region
    finds them. The body's one store fills the whole staging buffer with the payload of the two loaded blocks, the
    loads are of the whole input buffers, and the window is never cut. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.mm64 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz0]
  simp only [View.ld_unit_zero (S := S5000x64) hz0, View.ld_unit_zero (S := S64x64) hz0]
  funext j
  exact point0 _ _ t _ _ (fun y => rfl) (fun y => rfl) j

/-! ## The blocks tile the array -/

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v25).slice (win0_2.rect t)).set ↔ _
  rw [View.set_slice_whole, Rect.mem_set_unit]
  exact Iff.rfl

/-- Row `r` of the output array is written back by point `r / 5000`: the 20 row blocks of 5000 rows tile the 100000 rows,
    and every block spans all the columns. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-! ## The array after the region -/

/-- THE OUTPUT ARRAY after the region's run is the specification's product of the two input arrays as the region
    finds them: every point writes back its block of it, and the blocks cover the array. -/
theorem arr0 (V : (c : Dev nD) → (b : Ref sig .tc) → Buf (Elt Ideal) ((c : Thread nD τ).loc b)) (c : Dev nD) :
    (dat0 (F := Ideal) V c).arrAt 2 cfg0.N = Cert.Spec.mm64 (V c (Pipeline.arrRef spec0 0)) (V c (Pipeline.arrRef spec0 1)) :=
  (dat0 (F := Ideal) V c).arrAt_eq_of_cover 2 _ (fun t _ => flushed0_eq V c t) cover0

end Cert.KernelIdeal.RegionValue
end
-- ==== Proof.Region1.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

variable {F : FTy → Type} [FloatOps F]

/-- The zero offsets of a whole-block access, as the constant function. -/
theorem zero_off1 : (![0, 0] : Fin 2 → Nat) = fun _ => 0 := funext fun a => by fin_cases a <;> rfl

/-- A column [a, 1] broadcast along the lanes to [a, b] reads, at (p, q), the column's entry of row p. -/
theorem broadcastTo_a1_ab_apply1 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at (p, q): the gathered row's entry times the row's coefficient. -/
theorem pay1_apply (x0 : Vec F S10000x64 .f32) (x1 : Vec F S10000x1 .f32) (p : Fin 10000) (q : Fin 64) :
    k1_pay1 x0 x1 (ix2 p q) = FloatOps.mulf (x0 (ix2 p q)) (x1 (ix2 p (0 : Fin 1))) := by
  unfold k1_pay1
  show FloatOps.mulf (shapeCast S10000x64 x0 _ (ix2 p q)) (broadcastTo S10000x64 (shapeCast S10000x1 x1 _) _ (ix2 p q)) = _
  rw [shapeCast_self, shapeCast_self, broadcastTo_a1_ab_apply1]

/-- The printed index maps over the grid: every window's row-block index is the point, its lane-block index 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- Input window 0's block at point t is rows 10000 t … 10000 t + 9999 of the gathered edge table. -/
theorem iblk1_0_apply (c : Dev nD) (t : Fin cfg1.N) (y : S10000x64.Idx) (i : Cert.Spec.SE64.Idx)
    (h0 : (i 0).val = t.val * 10000 + (y 0).val) (h1 : (i 1).val = (y 1).val) :
    (iblk1 V c 0 t : Vec F S10000x64 .f32) y = (V c (Pipeline.arrRef spec1 0) : Cert.Spec.SE64.Idx → Elt F .f32) i := by
  obtain ⟨e0, e1, -⟩ := idx_facts1 t
  show V c (Pipeline.arrRef spec1 0) (((cfg1.win 0).blk t).view.emb y) = _
  refine congrArg (V c (Pipeline.arrRef spec1 0) : Cert.Spec.SE64.Idx → Elt F .f32) ?_
  funext a; apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- Input window 1's block at point t is rows 10000 t … 10000 t + 9999 of the coefficient column. -/
theorem iblk1_1_apply (c : Dev nD) (t : Fin cfg1.N) (y : S10000x1.Idx) (i : Cert.Spec.SE1.Idx)
    (h0 : (i 0).val = t.val * 10000 + (y 0).val) (h1 : (i 1).val = (y 1).val) :
    (iblk1 V c 1 t : Vec F S10000x1 .f32) y = (V c (Pipeline.arrRef spec1 1) : Cert.Spec.SE1.Idx → Elt F .f32) i := by
  obtain ⟨-, -, e2, e3, -⟩ := idx_facts1 t
  show V c (Pipeline.arrRef spec1 1) (((cfg1.win 1).blk t).view.emb y) = _
  refine congrArg (V c (Pipeline.arrRef spec1 1) : Cert.Spec.SE1.Idx → Elt F .f32) ?_
  funext a; apply Fin.ext
  match a with
  | ⟨0, _⟩ => show win1_1.index t (0 : Fin 2) * 10000 + 1 * (y 0).val = (i 0).val; rw [e2, h0]; omega
  | ⟨1, _⟩ => show win1_1.index t (1 : Fin 2) * 1 + 1 * (y 1).val = (i 1).val; rw [e3, h1]; omega

/-- WHAT POINT t WRITES BACK is block t of the scaled edge table of the arrays as the region finds them. -/
theorem flushed1_eq (c : Dev nD) (t : Fin cfg1.N) :
    (dat1 V c).flushed 2 t = ((cfg1.win 2).blk t).view.read (Elt F)
      (Cert.Spec.scale64 (V c (Pipeline.arrRef spec1 0)) (V c (Pipeline.arrRef spec1 1))) := by
  show (cfg1.win 2).cut (grid1.coords t) ((dat1 V c).after 2 t) = _
  rw [after1_2]
  unfold out1_2
  rw [View.canon_unit_zero zero_off1]
  simp only [View.ld_unit_zero (S := S10000x64) zero_off1, View.ld_unit_zero (S := S10000x1) zero_off1]
  obtain ⟨-, -, -, -, e4, e5⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = Cert.Spec.scale64 (V c (Pipeline.arrRef spec1 0)) (V c (Pipeline.arrRef spec1 1)) (((cfg1.win 2).blk t).view.emb (ix2 p q))
  refine (pay1_apply (iblk1 V c 0 t) (iblk1 V c 1 t) p q).trans ?_
  have r0 : ((((cfg1.win 2).blk t).view.emb (ix2 p q) : Cert.Spec.SE64.Idx) 0).val = t.val * 10000 + p.val := by
    show win1_2.index t (0 : Fin 2) * 10000 + 1 * p.val = _; rw [e4]; omega
  have r1 : ((((cfg1.win 2).blk t).view.emb (ix2 p q) : Cert.Spec.SE64.Idx) 1).val = q.val := by
    show win1_2.index t (1 : Fin 2) * 64 + 1 * q.val = _; rw [e5]; omega
  unfold Cert.Spec.scale64
  rw [iblk1_0_apply V c t (ix2 p q) (((cfg1.win 2).blk t).view.emb (ix2 p q)) r0 r1,
    iblk1_1_apply V c t (ix2 p (0 : Fin 1)) (ix2 (n0 := 1200000) (n1 := 1) ((((cfg1.win 2).blk t).view.emb (ix2 p q) : Cert.Spec.SE64.Idx) 0) 0) r0 rfl]

/-- An index of the array is in point t's block iff each coordinate is in the block's range on its axis. -/
theorem mem_blk1 (t : Fin cfg1.N) (i : Cert.Spec.SE64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v27).slice (win1_2.rect t)).set ↔ _
  rw [View.set_slice_whole, Rect.mem_set_unit]
  exact Iff.rfl

/-- Row r of the array is in the block of point r / 10000, which is written back. -/
theorem cover1 (i : Cert.Spec.SE64.Idx) :
    ∃ t : Fin cfg1.N, (cfg1.win 2).flush t = true ∧ i ∈ ((cfg1.win 2).blk t).view.set := by
  have hi0 : (i 0).val < 1200000 := idx2_lt0 i
  have hi1 : (i 1).val < 64 := idx2_lt1 i
  refine ⟨⟨(i 0).val / 10000, by rw [show cfg1.N = 120 from N_1]; omega⟩, flush1_2 _, ?_⟩
  rw [mem_blk1]
  obtain ⟨-, -, -, -, e4, e5⟩ := idx_facts1 ⟨(i 0).val / 10000, by rw [show cfg1.N = 120 from N_1]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 64 ≤ (i 1).val ∧ (i 1).val < win1_2.index _ (1 : Fin 2) * 64 + 64
    rw [e5]; omega

/-- THE ARRAY after the region's run: the gathered edge table scaled row by row by the coefficient column. -/
theorem arr1 (c : Dev nD) :
    (dat1 (F := F) V c).arrAt 2 cfg1.N = Cert.Spec.scale64 (V c (Pipeline.arrRef spec1 0)) (V c (Pipeline.arrRef spec1 1)) :=
  (dat1 V c).arrAt_eq_of_cover 2 _ (fun t _ => flushed1_eq V c t) cover1

end Cert.KernelIdeal.RegionValue
end
-- ==== Proof.Region2.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

variable {F : FTy → Type} [FloatOps F]
variable (V : (c : Dev nD) → (b : Ref sig .tc) → Buf (Elt F) ((c : Thread nD τ).loc b))

/-- The offsets of a whole-block access are all zero. -/
theorem zero_off2 : (![0, 0] : Fin 2 → Nat) = fun _ => 0 := funext fun a => by fin_cases a <;> rfl

/-- The index maps over the 20 grid points: a row-tiled window's block index at point t is (t, 0), the bias row's is (0, 0). -/
theorem idx_maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A column [5000,1] broadcast along the features reads the column at the row. -/
theorem col_bcast2 (x : Vec F S5000x1 .f32) (h : S5000x1.Broadcasts S5000x64) (j : S5000x64.Idx) :
    broadcastTo S5000x64 x h j = x (ix2 (n0 := 5000) (n1 := 1) (j 0) 0) :=
  broadcastTo_apply x h j _ fun a => by
    match a with
    | ⟨0, _⟩ => rfl
    | ⟨1, _⟩ => rfl

/-- A row [1,64] broadcast along the rows reads the row at the feature. -/
theorem row_bcast2 (x : Vec F S1x64 .f32) (h : S1x64.Broadcasts S5000x64) (j : S5000x64.Idx) :
    broadcastTo S5000x64 x h j = x (ix2 (n0 := 1) (n1 := 64) 0 (j 1)) :=
  broadcastTo_apply x h j _ fun a => by
    match a with
    | ⟨0, _⟩ => rfl
    | ⟨1, _⟩ => rfl

/-- The body's payload at an index of the block. -/
theorem pay2_apply (x0 x1 : Vec F S5000x64 .f32) (x2 : Vec F S5000x1 .f32) (x3 : Vec F S1x64 .f32) (j : S5000x64.Idx) :
    k2_pay1 x0 x1 x2 x3 j = FloatOps.maximumf
      (FloatOps.addf (FloatOps.addf (x0 j) (FloatOps.mulf (x1 j) (x2 (ix2 (n0 := 5000) (n1 := 1) (j 0) 0)))) (x3 (ix2 (n0 := 1) (n1 := 64) 0 (j 1))))
      (FloatOps.ofBits .f32 0x00000000#32) := by
  unfold k2_pay1
  simp only [shapeCast_self]
  show FloatOps.maximumf (FloatOps.addf (FloatOps.addf (x0 j) (FloatOps.mulf (x1 j) (broadcastTo S5000x64 x2 _ j))) (broadcastTo S5000x64 x3 _ j)) _ = _
  rw [col_bcast2, row_bcast2]
  rfl

/-- What the region leaves in its output array: the combination of the four input arrays, index by index. -/
abbrev G2 (c : Dev nD) :=
  Cert.Spec.comb64 (F := F) (V c (Pipeline.arrRef spec2 0)) (V c (Pipeline.arrRef spec2 1)) (V c (Pipeline.arrRef spec2 2)) (V c (Pipeline.arrRef spec2 3))

/-- An input window's block at a point reads its array at the block's place. -/
theorem blk2_0 (c : Dev nD) (t : Fin cfg2.N) (y : S5000x64.Idx) :
    iblk2 V c 0 t y = V c (Pipeline.arrRef spec2 0) (((cfg2.win 0).blk t).view.emb y) := rfl
theorem blk2_1 (c : Dev nD) (t : Fin cfg2.N) (y : S5000x64.Idx) :
    iblk2 V c 1 t y = V c (Pipeline.arrRef spec2 1) (((cfg2.win 1).blk t).view.emb y) := rfl
theorem blk2_2 (c : Dev nD) (t : Fin cfg2.N) (y : S5000x1.Idx) :
    iblk2 V c 2 t y = V c (Pipeline.arrRef spec2 2) (((cfg2.win 2).blk t).view.emb y) := rfl
theorem blk2_3 (c : Dev nD) (t : Fin cfg2.N) (y : S1x64.Idx) :
    iblk2 V c 3 t y = V c (Pipeline.arrRef spec2 3) (((cfg2.win 3).blk t).view.emb y) := rfl

/-- What point t writes back is block t of the combination of the input arrays. -/
theorem flushed2_eq (c : Dev nD) (t : Fin cfg2.N) :
    (dat2 V c).flushed 4 t = ((cfg2.win 4).blk t).view.read (Elt F) (G2 V c) := by
  show (cfg2.win 4).cut (grid2.coords t) ((dat2 V c).after 4 t) = _
  rw [after2_4]
  unfold out2_4
  rw [View.canon_unit_zero zero_off2]
  simp only [View.ld_unit_zero (S := S5000x64) zero_off2, View.ld_unit_zero (S := S5000x1) zero_off2, View.ld_unit_zero (S := S1x64) zero_off2]
  obtain ⟨e00, e01, e10, e11, e20, e21, e30, e31, e40, e41⟩ := idx_maps2 t
  funext j
  show k2_pay1 (iblk2 V c 0 t) (iblk2 V c 1 t) (iblk2 V c 2 t) (iblk2 V c 3 t) j = G2 V c (((cfg2.win 4).blk t).view.emb j)
  rw [pay2_apply, blk2_0, blk2_1, blk2_2, blk2_3]
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * (j 1).val = win2_4.index t (1 : Fin 2) * 64 + 1 * (j 1).val; omega
  have h1 : ((cfg2.win 1).blk t).view.emb j = ((cfg2.win 4).blk t).view.emb j := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 64 + 1 * (j 1).val = win2_4.index t (1 : Fin 2) * 64 + 1 * (j 1).val; omega
  have h2 : ((cfg2.win 2).blk t).view.emb (ix2 (n0 := 5000) (n1 := 1) (j 0) 0)
      = ix2 (n0 := 100000) (n1 := 1) ((((cfg2.win 4).blk t).view.emb j) 0) 0 := by
    funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 1 + 1 * 0 = 0; omega
  have h3 : ((cfg2.win 3).blk t).view.emb (ix2 (n0 := 1) (n1 := 64) 0 (j 1))
      = ix2 (n0 := 1) (n1 := 64) 0 ((((cfg2.win 4).blk t).view.emb j) 1) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega
  rw [h0, h1, h2, h3]
  rfl

/-- An index of the output array is in point t's block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v32).slice (win2_4.rect t)).set ↔ _
  rw [View.set_slice_whole, Rect.mem_set_unit]
  exact Iff.rfl

/-- Every row of the output array is in the block of the point that owns it: row r belongs to point r / 5000. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e00, e01, e10, e11, e20, e21, e30, e31, e40, e41⟩ := idx_maps2 t
  have ht : t.val = (i 0).val / 5000 := rfl
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The region's output array after its run is the combination of its input arrays as the region finds them. -/
theorem arr2 {F : FTy → Type} [FloatOps F] (V : (c : Dev nD) → (b : Ref sig .tc) → Buf (Elt F) ((c : Thread nD τ).loc b)) (c : Dev nD) :
    (dat2 (F := F) V c).arrAt 4 cfg2.N = Cert.Spec.comb64 (V c (Pipeline.arrRef spec2 0)) (V c (Pipeline.arrRef spec2 1)) (V c (Pipeline.arrRef spec2 2)) (V c (Pipeline.arrRef spec2 3)) :=
  (dat2 V c).arrAt_eq_of_cover 4 (G2 V c) (fun t _ => flushed2_eq V c t) cover2

end Cert.KernelIdeal.RegionValue
end
-- ==== Proof.Region3.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

/-- The zero offset of a whole-buffer rectangle, as the constant function. -/
theorem hz3 : (![0, 0] : Fin 2 → Nat) = fun _ => 0 := funext fun a => by fin_cases a <;> rfl

/-- The printed index maps over the grid's 20 points: the row-tiled windows' block row is the point, their block
    column 0; the weight window's block is (0, 0) at every point. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-! ## The contraction's operand indices, axis by axis -/

/-- The left operand's row is the output's row. -/
theorem lhs3_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column is the contracted index. -/
theorem lhs3_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row is the contracted index. -/
theorem rhs3_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column is the output's column. -/
theorem rhs3_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- THE PAYLOAD AT AN INDEX: at the extended reals the narrowing casts are the identity and the product into the
    zero accumulator is the plain sum over the 64 contracted positions, row of the left block against column of the
    right one. -/
theorem pay3_apply (x0 : Vec Ideal S5000x64 .f32) (x1 : Vec Ideal S64x64 .f32) (j : S5000x64.Idx) :
    k3_pay1 (F := Ideal) x0 x1 j = ∑ k : Fin 64, x0 (ix2 (n0 := 5000) (n1 := 64) (j 0) k) * x1 (ix2 (n0 := 64) (n1 := 64) k (j 1)) := by
  unfold k3_pay1
  rw [shapeCast_self]
  show FloatOps.matmul dot_S5000x64_S64x64_S5000x64_1_0_0_1_n_n none (truncf .bf16 x0 bitsLt_bf16_f32 : FVec Ideal S5000x64 .bf16) (truncf .bf16 x1 bitsLt_bf16_f32 : FVec Ideal S64x64 .bf16) (constant S5000x64 .f32 0x00000000#32) j = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = ix2 (n0 := 5000) (n1 := 64) (j 0) k := funext fun a => Fin.ext (by
    match a with
    | ⟨0, _⟩ => exact lhs3_0 _ _
    | ⟨1, _⟩ => exact (lhs3_1 _ _).trans hk)
  have er : dot_S5000x64_S64x64_S5000x64_1_0_0_1_n_n.rhsIdx j ((contrEquiv1 dot_S5000x64_S64x64_S5000x64_1_0_0_1_n_n 64 rfl rfl).symm k) = ix2 (n0 := 64) (n1 := 64) k (j 1) := funext fun a => Fin.ext (by
    match a with
    | ⟨0, _⟩ => exact (rhs3_0 _ _).trans hk
    | ⟨1, _⟩ => exact rhs3_1 _ _)
  rw [truncf_apply, truncf_apply, el, er]

/-! ## One grid point -/

/-- What point `t` computes at a block index `j`, from ANY two blocks that hold the arrays' entries at their windows'
    positions: the specification's row-by-column sum at the output block's position of `j` in the array. The left
    block's row `j 0` is the array's row `5000 * t + j 0`, the output's too; its columns are the array's; the right
    block is the whole weight array. -/
theorem point3 (A0 : S100000x64.Idx → EReal) (A1 : S64x64.Idx → EReal) (t : Fin cfg3.N)
    (x0 : Vec Ideal S5000x64 .f32) (x1 : Vec Ideal S64x64 .f32)
    (h0 : ∀ y, x0 y = A0 (((cfg3.win 0).blk t).view.emb y))
    (h1 : ∀ y, x1 y = A1 (((cfg3.win 1).blk t).view.emb y)) (j : S5000x64.Idx) :
    k3_pay1 (F := Ideal) x0 x1 j = Cert.Spec.mm64 A0 A1 (((cfg3.win 2).blk t).view.emb j) := by
  rw [pay3_apply]
  unfold Cert.Spec.mm64
  obtain ⟨e0, e1, e2, e3, e4, e5⟩ := idx_facts3 t
  refine Finset.sum_congr rfl fun k _ => ?_
  rw [h0, h1]
  have a0 : ((cfg3.win 0).blk t).view.emb (ix2 (n0 := 5000) (n1 := 64) (j 0) k)
      = ix2 (n0 := 100000) (n1 := 64) ((((cfg3.win 2).blk t).view.emb j) 0) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  have a1 : ((cfg3.win 1).blk t).view.emb (ix2 (n0 := 64) (n1 := 64) k (j 1))
      = ix2 (n0 := 64) (n1 := 64) k ((((cfg3.win 2).blk t).view.emb j) 1) := by
    funext a; apply Fin.ext
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  rw [a0, a1]

/-- WHAT POINT `t` WRITES BACK: block `t` of the specification's product of the two input arrays as the region
    finds them. The body's one store fills the whole staging buffer with the payload of the two loaded blocks, the
    loads are of the whole input buffers, and the window is never cut. -/
theorem flushed3_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Spec.mm64 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz3]
  simp only [View.ld_unit_zero (S := S5000x64) hz3, View.ld_unit_zero (S := S64x64) hz3]
  funext j
  exact point3 _ _ t _ _ (fun y => rfl) (fun y => rfl) j

/-! ## The blocks tile the array -/

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v33).slice (win3_2.rect t)).set ↔ _
  rw [View.set_slice_whole, Rect.mem_set_unit]
  exact Iff.rfl

/-- Row `r` of the output array is written back by point `r / 5000`: the 20 row blocks of 5000 rows tile the 100000 rows,
    and every block spans all the columns. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, Nat.lt_of_lt_of_eq (by omega : (i 0).val / 5000 < 20) N_3.symm⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-! ## The array after the region -/

/-- THE OUTPUT ARRAY after the region's run is the specification's product of the two input arrays as the region
    finds them: every point writes back its block of it, and the blocks cover the array. -/
theorem arr3 (V : (c : Dev nD) → (b : Ref sig .tc) → Buf (Elt Ideal) ((c : Thread nD τ).loc b)) (c : Dev nD) :
    (dat3 (F := Ideal) V c).arrAt 2 cfg3.N = Cert.Spec.mm64 (V c (Pipeline.arrRef spec3 0)) (V c (Pipeline.arrRef spec3 1)) :=
  (dat3 (F := Ideal) V c).arrAt_eq_of_cover 2 _ (fun t _ => flushed3_eq V c t) cover3

end Cert.KernelIdeal.RegionValue
end
-- ==== Proof.Region4.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

variable {F : FTy → Type} [FloatOps F]

/-- The zero offsets of a whole-block access, as the constant function. -/
theorem zero_off4 : (![0, 0] : Fin 2 → Nat) = fun _ => 0 := funext fun a => by fin_cases a <;> rfl

/-- A column [a, 1] broadcast along the lanes to [a, b] reads, at (p, q), the column's entry of row p. -/
theorem broadcastTo_a1_ab_apply4 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at (p, q): the gathered row's entry times the row's coefficient. -/
theorem pay4_apply (x0 : Vec F S10000x64 .f32) (x1 : Vec F S10000x1 .f32) (p : Fin 10000) (q : Fin 64) :
    k4_pay1 x0 x1 (ix2 p q) = FloatOps.mulf (x0 (ix2 p q)) (x1 (ix2 p (0 : Fin 1))) := by
  unfold k4_pay1
  show FloatOps.mulf (shapeCast S10000x64 x0 _ (ix2 p q)) (broadcastTo S10000x64 (shapeCast S10000x1 x1 _) _ (ix2 p q)) = _
  rw [shapeCast_self, shapeCast_self, broadcastTo_a1_ab_apply4]

/-- The printed index maps over the grid: every window's row-block index is the point, its lane-block index 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt F) ((c : Thread nD τ).loc b))

/-- Input window 0's block at point t is rows 10000 t … 10000 t + 9999 of the gathered edge table. -/
theorem iblk4_0_apply (c : Dev nD) (t : Fin cfg4.N) (y : S10000x64.Idx) (i : Cert.Spec.SE64.Idx)
    (h0 : (i 0).val = t.val * 10000 + (y 0).val) (h1 : (i 1).val = (y 1).val) :
    (iblk4 V c 0 t : Vec F S10000x64 .f32) y = (V c (Pipeline.arrRef spec4 0) : Cert.Spec.SE64.Idx → Elt F .f32) i := by
  obtain ⟨e0, e1, -⟩ := idx_facts4 t
  show V c (Pipeline.arrRef spec4 0) (((cfg4.win 0).blk t).view.emb y) = _
  refine congrArg (V c (Pipeline.arrRef spec4 0) : Cert.Spec.SE64.Idx → Elt F .f32) ?_
  funext a; apply Fin.ext
  match a with
  | ⟨0, _⟩ => show win4_0.index t (0 : Fin 2) * 10000 + 1 * (y 0).val = (i 0).val; rw [e0, h0]; omega
  | ⟨1, _⟩ => show win4_0.index t (1 : Fin 2) * 64 + 1 * (y 1).val = (i 1).val; rw [e1, h1]; omega

/-- Input window 1's block at point t is rows 10000 t … 10000 t + 9999 of the coefficient column. -/
theorem iblk4_1_apply (c : Dev nD) (t : Fin cfg4.N) (y : S10000x1.Idx) (i : Cert.Spec.SE1.Idx)
    (h0 : (i 0).val = t.val * 10000 + (y 0).val) (h1 : (i 1).val = (y 1).val) :
    (iblk4 V c 1 t : Vec F S10000x1 .f32) y = (V c (Pipeline.arrRef spec4 1) : Cert.Spec.SE1.Idx → Elt F .f32) i := by
  obtain ⟨-, -, e2, e3, -⟩ := idx_facts4 t
  show V c (Pipeline.arrRef spec4 1) (((cfg4.win 1).blk t).view.emb y) = _
  refine congrArg (V c (Pipeline.arrRef spec4 1) : Cert.Spec.SE1.Idx → Elt F .f32) ?_
  funext a; apply Fin.ext
  match a with
  | ⟨0, _⟩ => show win4_1.index t (0 : Fin 2) * 10000 + 1 * (y 0).val = (i 0).val; rw [e2, h0]; omega
  | ⟨1, _⟩ => show win4_1.index t (1 : Fin 2) * 1 + 1 * (y 1).val = (i 1).val; rw [e3, h1]; omega

/-- WHAT POINT t WRITES BACK is block t of the scaled edge table of the arrays as the region finds them. -/
theorem flushed4_eq (c : Dev nD) (t : Fin cfg4.N) :
    (dat4 V c).flushed 2 t = ((cfg4.win 2).blk t).view.read (Elt F)
      (Cert.Spec.scale64 (V c (Pipeline.arrRef spec4 0)) (V c (Pipeline.arrRef spec4 1))) := by
  show (cfg4.win 2).cut (grid4.coords t) ((dat4 V c).after 2 t) = _
  rw [after4_2]
  unfold out4_2
  rw [View.canon_unit_zero zero_off4]
  simp only [View.ld_unit_zero (S := S10000x64) zero_off4, View.ld_unit_zero (S := S10000x1) zero_off4]
  obtain ⟨-, -, -, -, e4, e5⟩ := idx_facts4 t
  funext j
  obtain ⟨p, q, rfl⟩ : ∃ (p : Fin 10000) (q : Fin 64), j = ix2 p q := ⟨j 0, j 1, eq_ix2 j⟩
  show k4_pay1 (iblk4 V c 0 t) (iblk4 V c 1 t) (ix2 p q)
    = Cert.Spec.scale64 (V c (Pipeline.arrRef spec4 0)) (V c (Pipeline.arrRef spec4 1)) (((cfg4.win 2).blk t).view.emb (ix2 p q))
  refine (pay4_apply (iblk4 V c 0 t) (iblk4 V c 1 t) p q).trans ?_
  have r0 : ((((cfg4.win 2).blk t).view.emb (ix2 p q) : Cert.Spec.SE64.Idx) 0).val = t.val * 10000 + p.val := by
    show win4_2.index t (0 : Fin 2) * 10000 + 1 * p.val = _; rw [e4]; omega
  have r1 : ((((cfg4.win 2).blk t).view.emb (ix2 p q) : Cert.Spec.SE64.Idx) 1).val = q.val := by
    show win4_2.index t (1 : Fin 2) * 64 + 1 * q.val = _; rw [e5]; omega
  unfold Cert.Spec.scale64
  rw [iblk4_0_apply V c t (ix2 p q) (((cfg4.win 2).blk t).view.emb (ix2 p q)) r0 r1,
    iblk4_1_apply V c t (ix2 p (0 : Fin 1)) (ix2 (n0 := 1200000) (n1 := 1) ((((cfg4.win 2).blk t).view.emb (ix2 p q) : Cert.Spec.SE64.Idx) 0) 0) r0 rfl]

/-- An index of the array is in point t's block iff each coordinate is in the block's range on its axis. -/
theorem mem_blk4 (t : Fin cfg4.N) (i : Cert.Spec.SE64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v35).slice (win4_2.rect t)).set ↔ _
  rw [View.set_slice_whole, Rect.mem_set_unit]
  exact Iff.rfl

/-- Row r of the array is in the block of point r / 10000, which is written back. -/
theorem cover4 (i : Cert.Spec.SE64.Idx) :
    ∃ t : Fin cfg4.N, (cfg4.win 2).flush t = true ∧ i ∈ ((cfg4.win 2).blk t).view.set := by
  have hi0 : (i 0).val < 1200000 := idx2_lt0 i
  have hi1 : (i 1).val < 64 := idx2_lt1 i
  refine ⟨⟨(i 0).val / 10000, by rw [show cfg4.N = 120 from N_4]; omega⟩, flush4_2 _, ?_⟩
  rw [mem_blk4]
  obtain ⟨-, -, -, -, e4, e5⟩ := idx_facts4 ⟨(i 0).val / 10000, by rw [show cfg4.N = 120 from N_4]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 64 ≤ (i 1).val ∧ (i 1).val < win4_2.index _ (1 : Fin 2) * 64 + 64
    rw [e5]; omega

/-- THE ARRAY after the region's run: the gathered edge table scaled row by row by the coefficient column. -/
theorem arr4 (c : Dev nD) :
    (dat4 (F := F) V c).arrAt 2 cfg4.N = Cert.Spec.scale64 (V c (Pipeline.arrRef spec4 0)) (V c (Pipeline.arrRef spec4 1)) :=
  (dat4 V c).arrAt_eq_of_cover 2 _ (fun t _ => flushed4_eq V c t) cover4

end Cert.KernelIdeal.RegionValue
end
-- ==== Proof.Region5.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

variable {F : FTy → Type} [FloatOps F]
variable (V : (c : Dev nD) → (b : Ref sig .tc) → Buf (Elt F) ((c : Thread nD τ).loc b))

/-- The offsets of a whole-block access are all zero. -/
theorem zero_off5 : (![0, 0] : Fin 2 → Nat) = fun _ => 0 := funext fun a => by fin_cases a <;> rfl

/-- The index maps over the 20 grid points: a row-tiled window's block index at point t is (t, 0), the bias row's is (0, 0). -/
theorem idx_maps5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- A column [5000,1] broadcast along the features reads the column at the row. -/
theorem col_bcast5 (x : Vec F S5000x1 .f32) (h : S5000x1.Broadcasts S5000x64) (j : S5000x64.Idx) :
    broadcastTo S5000x64 x h j = x (ix2 (n0 := 5000) (n1 := 1) (j 0) 0) :=
  broadcastTo_apply x h j _ fun a => by
    match a with
    | ⟨0, _⟩ => rfl
    | ⟨1, _⟩ => rfl

/-- A row [1,64] broadcast along the rows reads the row at the feature. -/
theorem row_bcast5 (x : Vec F S1x64 .f32) (h : S1x64.Broadcasts S5000x64) (j : S5000x64.Idx) :
    broadcastTo S5000x64 x h j = x (ix2 (n0 := 1) (n1 := 64) 0 (j 1)) :=
  broadcastTo_apply x h j _ fun a => by
    match a with
    | ⟨0, _⟩ => rfl
    | ⟨1, _⟩ => rfl

/-- The body's payload at an index of the block. -/
theorem pay5_apply (x0 x1 : Vec F S5000x64 .f32) (x2 : Vec F S5000x1 .f32) (x3 : Vec F S1x64 .f32) (j : S5000x64.Idx) :
    k5_pay1 x0 x1 x2 x3 j = FloatOps.maximumf
      (FloatOps.addf (FloatOps.addf (x0 j) (FloatOps.mulf (x1 j) (x2 (ix2 (n0 := 5000) (n1 := 1) (j 0) 0)))) (x3 (ix2 (n0 := 1) (n1 := 64) 0 (j 1))))
      (FloatOps.ofBits .f32 0x00000000#32) := by
  unfold k5_pay1
  simp only [shapeCast_self]
  show FloatOps.maximumf (FloatOps.addf (FloatOps.addf (x0 j) (FloatOps.mulf (x1 j) (broadcastTo S5000x64 x2 _ j))) (broadcastTo S5000x64 x3 _ j)) _ = _
  rw [col_bcast5, row_bcast5]
  rfl

/-- What the region leaves in its output array: the combination of the four input arrays, index by index. -/
abbrev G5 (c : Dev nD) :=
  Cert.Spec.comb64 (F := F) (V c (Pipeline.arrRef spec5 0)) (V c (Pipeline.arrRef spec5 1)) (V c (Pipeline.arrRef spec5 2)) (V c (Pipeline.arrRef spec5 3))

/-- An input window's block at a point reads its array at the block's place. -/
theorem blk5_0 (c : Dev nD) (t : Fin cfg5.N) (y : S5000x64.Idx) :
    iblk5 V c 0 t y = V c (Pipeline.arrRef spec5 0) (((cfg5.win 0).blk t).view.emb y) := rfl
theorem blk5_1 (c : Dev nD) (t : Fin cfg5.N) (y : S5000x64.Idx) :
    iblk5 V c 1 t y = V c (Pipeline.arrRef spec5 1) (((cfg5.win 1).blk t).view.emb y) := rfl
theorem blk5_2 (c : Dev nD) (t : Fin cfg5.N) (y : S5000x1.Idx) :
    iblk5 V c 2 t y = V c (Pipeline.arrRef spec5 2) (((cfg5.win 2).blk t).view.emb y) := rfl
theorem blk5_3 (c : Dev nD) (t : Fin cfg5.N) (y : S1x64.Idx) :
    iblk5 V c 3 t y = V c (Pipeline.arrRef spec5 3) (((cfg5.win 3).blk t).view.emb y) := rfl

/-- What point t writes back is block t of the combination of the input arrays. -/
theorem flushed5_eq (c : Dev nD) (t : Fin cfg5.N) :
    (dat5 V c).flushed 4 t = ((cfg5.win 4).blk t).view.read (Elt F) (G5 V c) := by
  show (cfg5.win 4).cut (grid5.coords t) ((dat5 V c).after 4 t) = _
  rw [after5_4]
  unfold out5_4
  rw [View.canon_unit_zero zero_off5]
  simp only [View.ld_unit_zero (S := S5000x64) zero_off5, View.ld_unit_zero (S := S5000x1) zero_off5, View.ld_unit_zero (S := S1x64) zero_off5]
  obtain ⟨e00, e01, e10, e11, e20, e21, e30, e31, e40, e41⟩ := idx_maps5 t
  funext j
  show k5_pay1 (iblk5 V c 0 t) (iblk5 V c 1 t) (iblk5 V c 2 t) (iblk5 V c 3 t) j = G5 V c (((cfg5.win 4).blk t).view.emb j)
  rw [pay5_apply, blk5_0, blk5_1, blk5_2, blk5_3]
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  have h1 : ((cfg5.win 1).blk t).view.emb j = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 64 + 1 * (j 1).val = win5_4.index t (1 : Fin 2) * 64 + 1 * (j 1).val; omega
  have h2 : ((cfg5.win 2).blk t).view.emb (ix2 (n0 := 5000) (n1 := 1) (j 0) 0)
      = ix2 (n0 := 100000) (n1 := 1) ((((cfg5.win 4).blk t).view.emb j) 0) 0 := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : ((cfg5.win 3).blk t).view.emb (ix2 (n0 := 1) (n1 := 64) 0 (j 1))
      = ix2 (n0 := 1) (n1 := 64) 0 ((((cfg5.win 4).blk t).view.emb j) 1) := by
    funext a; apply Fin.ext
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega
  rw [h0, h1, h2, h3]
  rfl

/-- An index of the output array is in point t's block iff each coordinate is in the block's range on its axis. -/
theorem mem_blk5 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v40).slice (win5_4.rect t)).set ↔ _
  rw [View.set_slice_whole, Rect.mem_set_unit]
  exact Iff.rfl

/-- Every row of the output array is in the block of the point that owns it: row r belongs to point r / 5000. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨e00, e01, e10, e11, e20, e21, e30, e31, e40, e41⟩ := idx_maps5 t
  have ht : t.val = (i 0).val / 5000 := rfl
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The region's output array after its run is the combination of its input arrays as the region finds them. -/
theorem arr5 {F : FTy → Type} [FloatOps F] (V : (c : Dev nD) → (b : Ref sig .tc) → Buf (Elt F) ((c : Thread nD τ).loc b)) (c : Dev nD) :
    (dat5 (F := F) V c).arrAt 4 cfg5.N = Cert.Spec.comb64 (V c (Pipeline.arrRef spec5 0)) (V c (Pipeline.arrRef spec5 1)) (V c (Pipeline.arrRef spec5 2)) (V c (Pipeline.arrRef spec5 3)) :=
  (dat5 V c).arrAt_eq_of_cover 4 (G5 V c) (fun t _ => flushed5_eq V c t) cover5

end Cert.KernelIdeal.RegionValue
end
-- ==== Proof.Region6.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

/-- The zero offset of a whole-buffer rectangle, as the constant function. -/
theorem hz6 : (![0, 0] : Fin 2 → Nat) = fun _ => 0 := funext fun a => by fin_cases a <;> rfl

/-- The printed index maps over the grid's 20 points: the row-tiled windows' block row is the point, their block
    column 0; the weight window's block is (0, 0) at every point. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-! ## The contraction's operand indices, axis by axis -/

/-- The left operand's row is the output's row. -/
theorem lhs6_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- The left operand's column is the contracted index. -/
theorem lhs6_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
/-- The right operand's row is the contracted index. -/
theorem rhs6_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
/-- The right operand's column is the output's column. -/
theorem rhs6_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- THE PAYLOAD AT AN INDEX: at the extended reals the narrowing casts are the identity and the product into the
    zero accumulator is the plain sum over the 64 contracted positions, row of the left block against column of the
    right one. -/
theorem pay6_apply (x0 : Vec Ideal S5000x64 .f32) (x1 : Vec Ideal S64x1 .f32) (j : S5000x1.Idx) :
    k6_pay1 (F := Ideal) x0 x1 j = ∑ k : Fin 64, x0 (ix2 (n0 := 5000) (n1 := 64) (j 0) k) * x1 (ix2 (n0 := 64) (n1 := 1) k (j 1)) := by
  unfold k6_pay1
  rw [shapeCast_self]
  show FloatOps.matmul dot_S5000x64_S64x1_S5000x1_1_0_0_1_n_n none (truncf .bf16 x0 bitsLt_bf16_f32 : FVec Ideal S5000x64 .bf16) (truncf .bf16 x1 bitsLt_bf16_f32 : FVec Ideal S64x1 .bf16) (constant S5000x1 .f32 0x00000000#32) j = _
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx j ((contrEquiv1 dot_S5000x64_S64x1_S5000x1_1_0_0_1_n_n 64 rfl rfl).symm k) = ix2 (n0 := 5000) (n1 := 64) (j 0) k := funext fun a => Fin.ext (by
    match a with
    | ⟨0, _⟩ => exact lhs6_0 _ _
    | ⟨1, _⟩ => exact (lhs6_1 _ _).trans hk)
  have er : dot_S5000x64_S64x1_S5000x1_1_0_0_1_n_n.rhsIdx j ((contrEquiv1 dot_S5000x64_S64x1_S5000x1_1_0_0_1_n_n 64 rfl rfl).symm k) = ix2 (n0 := 64) (n1 := 1) k (j 1) := funext fun a => Fin.ext (by
    match a with
    | ⟨0, _⟩ => exact (rhs6_0 _ _).trans hk
    | ⟨1, _⟩ => exact rhs6_1 _ _)
  rw [truncf_apply, truncf_apply, el, er]

/-! ## One grid point -/

/-- What point `t` computes at a block index `j`, from ANY two blocks that hold the arrays' entries at their windows'
    positions: the specification's row-by-column sum at the output block's position of `j` in the array. The left
    block's row `j 0` is the array's row `5000 * t + j 0`, the output's too; its columns are the array's; the right
    block is the whole weight array. -/
theorem point6 (A0 : S100000x64.Idx → EReal) (A1 : S64x1.Idx → EReal) (t : Fin cfg6.N)
    (x0 : Vec Ideal S5000x64 .f32) (x1 : Vec Ideal S64x1 .f32)
    (h0 : ∀ y, x0 y = A0 (((cfg6.win 0).blk t).view.emb y))
    (h1 : ∀ y, x1 y = A1 (((cfg6.win 1).blk t).view.emb y)) (j : S5000x1.Idx) :
    k6_pay1 (F := Ideal) x0 x1 j = Cert.Spec.mm1 A0 A1 (((cfg6.win 2).blk t).view.emb j) := by
  rw [pay6_apply]
  unfold Cert.Spec.mm1
  obtain ⟨e0, e1, e2, e3, e4, e5⟩ := idx_facts6 t
  refine Finset.sum_congr rfl fun k _ => ?_
  rw [h0, h1]
  have a0 : ((cfg6.win 0).blk t).view.emb (ix2 (n0 := 5000) (n1 := 64) (j 0) k)
      = ix2 (n0 := 100000) (n1 := 64) ((((cfg6.win 2).blk t).view.emb j) 0) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 64 + 1 * k.val = k.val; omega
  have a1 : ((cfg6.win 1).blk t).view.emb (ix2 (n0 := 64) (n1 := 1) k (j 1))
      = ix2 (n0 := 64) (n1 := 1) k ((((cfg6.win 2).blk t).view.emb j) 1) := by
    funext a; apply Fin.ext
    match a with
    | ⟨0, _⟩ => show win6_1.index t (0 : Fin 2) * 64 + 1 * k.val = k.val; omega
    | ⟨1, _⟩ => show win6_1.index t (1 : Fin 2) * 1 + 1 * (j 1).val = win6_2.index t (1 : Fin 2) * 1 + 1 * (j 1).val; omega
  rw [a0, a1]

/-- WHAT POINT `t` WRITES BACK: block `t` of the specification's product of the two input arrays as the region
    finds them. The body's one store fills the whole staging buffer with the payload of the two loaded blocks, the
    loads are of the whole input buffers, and the window is never cut. -/
theorem flushed6_eq (V : (c : Dev nD) → (b : Ref sig .tc) → Buf (Elt Ideal) ((c : Thread nD τ).loc b)) (c : Dev nD) (t : Fin cfg6.N) :
    (dat6 (F := Ideal) V c).flushed 2 t
      = ((cfg6.win 2).blk t).view.read (Elt Ideal) (Cert.Spec.mm1 (V c (Pipeline.arrRef spec6 0)) (V c (Pipeline.arrRef spec6 1))) := by
  show (cfg6.win 2).cut (grid6.coords t) ((dat6 (F := Ideal) V c).after 2 t) = _
  rw [after6_2]
  unfold out6_2
  rw [View.canon_unit_zero hz6]
  simp only [View.ld_unit_zero (S := S5000x64) hz6, View.ld_unit_zero (S := S64x1) hz6]
  funext j
  exact point6 _ _ t _ _ (fun y => rfl) (fun y => rfl) j

/-! ## The blocks tile the array -/

/-- An index of the output array is in point `t`'s block iff each coordinate is in the block's range on its axis. -/
theorem mem_blk6 (t : Fin cfg6.N) (i : S100000x1.Idx) :
    i ∈ ((cfg6.win 2).blk t).view.set ↔ ∀ a : Fin 2, win6_2.index t a * S5000x1.size a ≤ (i a).val ∧ (i a).val < win6_2.index t a * S5000x1.size a + S5000x1.size a := by
  show i ∈ ((View.whole main_v41).slice (win6_2.rect t)).set ↔ _
  rw [View.set_slice_whole, Rect.mem_set_unit]
  exact Iff.rfl

/-- Row `r` of the output array is written back by point `r / 5000`: the 20 row blocks of 5000 rows tile the 100000 rows,
    and every block spans all the columns. -/
theorem cover6 (i : S100000x1.Idx) : ∃ t : Fin cfg6.N, (cfg6.win 2).flush t = true ∧ i ∈ ((cfg6.win 2).blk t).view.set := by
  have hi0 : (i 0).val < 100000 := (i 0).isLt
  have hi1 : (i 1).val < 1 := (i 1).isLt
  obtain ⟨t, ht⟩ : ∃ t : Fin cfg6.N, t.val = (i 0).val / 5000 :=
    ⟨⟨(i 0).val / 5000, Nat.lt_of_lt_of_eq (by omega : (i 0).val / 5000 < 20) N_6.symm⟩, rfl⟩
  obtain ⟨e0, e1, e2, e3, e4, e5⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 1 ≤ (i 1).val ∧ (i 1).val < win6_2.index t (1 : Fin 2) * 1 + 1; omega

/-! ## The array after the region -/

/-- THE OUTPUT ARRAY after the region's run is the specification's product of the two input arrays as the region
    finds them: every point writes back its block of it, and the blocks cover the array. -/
theorem arr6 (V : (c : Dev nD) → (b : Ref sig .tc) → Buf (Elt Ideal) ((c : Thread nD τ).loc b)) (c : Dev nD) :
    (dat6 (F := Ideal) V c).arrAt 2 cfg6.N = Cert.Spec.mm1 (V c (Pipeline.arrRef spec6 0)) (V c (Pipeline.arrRef spec6 1)) :=
  (dat6 (F := Ideal) V c).arrAt_eq_of_cover 2 _ (fun t _ => flushed6_eq V c t) cover6

end Cert.KernelIdeal.RegionValue
end
-- ==== Proof.Region7.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

variable {F : FTy → Type} [FloatOps F]

/-- The zero offsets of a whole-block access, as the constant function. -/
theorem zero_off7 : (![0, 0] : Fin 2 → Nat) = fun _ => 0 := funext fun a => by fin_cases a <;> rfl

/-- The body's payload at an index: the gathered entry times the coefficient of the same row. -/
theorem pay7_apply (x0 : Vec F S10000x1 .f32) (x1 : Vec F S10000x1 .f32) (j : S10000x1.Idx) :
    k7_pay1 x0 x1 j = FloatOps.mulf (x0 j) (x1 j) := by
  unfold k7_pay1
  show FloatOps.mulf (shapeCast S10000x1 x0 _ j) (shapeCast S10000x1 x1 _ j) = _
  rw [shapeCast_self, shapeCast_self]

/-- The printed index maps over the grid: every window's row-block index is the point, its lane-block index 0. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt F) ((c : Thread nD τ).loc b))

/-- Input window 0's block at point t is rows 10000 t … 10000 t + 9999 of the gathered edge column. -/
theorem iblk7_0_apply (c : Dev nD) (t : Fin cfg7.N) (y : S10000x1.Idx) (i : Cert.Spec.SE1.Idx)
    (h0 : (i 0).val = t.val * 10000 + (y 0).val) (h1 : (i 1).val = (y 1).val) :
    (iblk7 V c 0 t : Vec F S10000x1 .f32) y = (V c (Pipeline.arrRef spec7 0) : Cert.Spec.SE1.Idx → Elt F .f32) i := by
  obtain ⟨e0, e1, -⟩ := idx_facts7 t
  show V c (Pipeline.arrRef spec7 0) (((cfg7.win 0).blk t).view.emb y) = _
  refine congrArg (V c (Pipeline.arrRef spec7 0) : Cert.Spec.SE1.Idx → Elt F .f32) ?_
  funext a; apply Fin.ext
  match a with
  | ⟨0, _⟩ => show win7_0.index t (0 : Fin 2) * 10000 + 1 * (y 0).val = (i 0).val; rw [e0, h0]; omega
  | ⟨1, _⟩ => show win7_0.index t (1 : Fin 2) * 1 + 1 * (y 1).val = (i 1).val; rw [e1, h1]; omega

/-- Input window 1's block at point t is rows 10000 t … 10000 t + 9999 of the coefficient column. -/
theorem iblk7_1_apply (c : Dev nD) (t : Fin cfg7.N) (y : S10000x1.Idx) (i : Cert.Spec.SE1.Idx)
    (h0 : (i 0).val = t.val * 10000 + (y 0).val) (h1 : (i 1).val = (y 1).val) :
    (iblk7 V c 1 t : Vec F S10000x1 .f32) y = (V c (Pipeline.arrRef spec7 1) : Cert.Spec.SE1.Idx → Elt F .f32) i := by
  obtain ⟨-, -, e2, e3, -⟩ := idx_facts7 t
  show V c (Pipeline.arrRef spec7 1) (((cfg7.win 1).blk t).view.emb y) = _
  refine congrArg (V c (Pipeline.arrRef spec7 1) : Cert.Spec.SE1.Idx → Elt F .f32) ?_
  funext a; apply Fin.ext
  match a with
  | ⟨0, _⟩ => show win7_1.index t (0 : Fin 2) * 10000 + 1 * (y 0).val = (i 0).val; rw [e2, h0]; omega
  | ⟨1, _⟩ => show win7_1.index t (1 : Fin 2) * 1 + 1 * (y 1).val = (i 1).val; rw [e3, h1]; omega

/-- WHAT POINT t WRITES BACK is block t of the scaled edge column of the arrays as the region finds them. -/
theorem flushed7_eq (c : Dev nD) (t : Fin cfg7.N) :
    (dat7 V c).flushed 2 t = ((cfg7.win 2).blk t).view.read (Elt F)
      (Cert.Spec.scale1 (V c (Pipeline.arrRef spec7 0)) (V c (Pipeline.arrRef spec7 1))) := by
  show (cfg7.win 2).cut (grid7.coords t) ((dat7 V c).after 2 t) = _
  rw [after7_2]
  unfold out7_2
  rw [View.canon_unit_zero zero_off7]
  simp only [View.ld_unit_zero (S := S10000x1) zero_off7]
  obtain ⟨-, -, -, -, e4, e5⟩ := idx_facts7 t
  funext j
  show k7_pay1 (iblk7 V c 0 t) (iblk7 V c 1 t) j
    = Cert.Spec.scale1 (V c (Pipeline.arrRef spec7 0)) (V c (Pipeline.arrRef spec7 1)) (((cfg7.win 2).blk t).view.emb j)
  refine (pay7_apply (iblk7 V c 0 t) (iblk7 V c 1 t) j).trans ?_
  have r0 : ((((cfg7.win 2).blk t).view.emb j : Cert.Spec.SE1.Idx) 0).val = t.val * 10000 + (j 0).val := by
    show win7_2.index t (0 : Fin 2) * 10000 + 1 * (j 0).val = _; rw [e4]; omega
  have r1 : ((((cfg7.win 2).blk t).view.emb j : Cert.Spec.SE1.Idx) 1).val = (j 1).val := by
    show win7_2.index t (1 : Fin 2) * 1 + 1 * (j 1).val = _; rw [e5]; omega
  unfold Cert.Spec.scale1
  rw [iblk7_0_apply V c t j (((cfg7.win 2).blk t).view.emb j) r0 r1,
    iblk7_1_apply V c t j (((cfg7.win 2).blk t).view.emb j) r0 r1]

/-- An index of the array is in point t's block iff each coordinate is in the block's range on its axis. -/
theorem mem_blk7 (t : Fin cfg7.N) (i : Cert.Spec.SE1.Idx) :
    i ∈ ((cfg7.win 2).blk t).view.set ↔ ∀ a : Fin 2, win7_2.index t a * S10000x1.size a ≤ (i a).val
      ∧ (i a).val < win7_2.index t a * S10000x1.size a + S10000x1.size a := by
  show i ∈ ((View.whole main_v43).slice (win7_2.rect t)).set ↔ _
  rw [View.set_slice_whole, Rect.mem_set_unit]
  exact Iff.rfl

/-- Row r of the array is in the block of point r / 10000, which is written back. -/
theorem cover7 (i : Cert.Spec.SE1.Idx) :
    ∃ t : Fin cfg7.N, (cfg7.win 2).flush t = true ∧ i ∈ ((cfg7.win 2).blk t).view.set := by
  have hi0 : (i 0).val < 1200000 := idx2_lt0 i
  have hi1 : (i 1).val < 1 := idx2_lt1 i
  refine ⟨⟨(i 0).val / 10000, by rw [show cfg7.N = 120 from N_7]; omega⟩, flush7_2 _, ?_⟩
  rw [mem_blk7]
  obtain ⟨-, -, -, -, e4, e5⟩ := idx_facts7 ⟨(i 0).val / 10000, by rw [show cfg7.N = 120 from N_7]; omega⟩
  intro a
  match a with
  | ⟨0, _⟩ =>
    show win7_2.index _ (0 : Fin 2) * 10000 ≤ (i 0).val ∧ (i 0).val < win7_2.index _ (0 : Fin 2) * 10000 + 10000
    rw [e4]; show (i 0).val / 10000 * 10000 ≤ (i 0).val ∧ (i 0).val < (i 0).val / 10000 * 10000 + 10000; omega
  | ⟨1, _⟩ =>
    show win7_2.index _ (1 : Fin 2) * 1 ≤ (i 1).val ∧ (i 1).val < win7_2.index _ (1 : Fin 2) * 1 + 1
    rw [e5]; omega

/-- THE ARRAY after the region's run: the gathered edge column scaled row by row by the coefficient column. -/
theorem arr7 (c : Dev nD) :
    (dat7 (F := F) V c).arrAt 2 cfg7.N = Cert.Spec.scale1 (V c (Pipeline.arrRef spec7 0)) (V c (Pipeline.arrRef spec7 1)) :=
  (dat7 V c).arrAt_eq_of_cover 2 _ (fun t _ => flushed7_eq V c t) cover7

end Cert.KernelIdeal.RegionValue
end
-- ==== Proof.Region8.lean ====
import proofs.«409193_j64836826301090_2_alg».proof.Proof.Gen.KernelIdeal.Frame
import proofs.«409193_j64836826301090_2_alg».proof.Proof.Spec
import Idealize.ShloMosaic.Lib.Pipeline.Value
import Idealize.ShloMosaic.PureOps.Ideal.Laws
import Idealize.ShloMosaic.Lib.ValueIdx
import Idealize.ShloMosaic.Lib.ValueLayout
set_option maxRecDepth 16384

noncomputable section

open Idealize.ShloMosaic Idealize.ShloMosaic.TcCoe Idealize.SL.Sem
open Idealize.ShloMosaic.Pipeline (Dat Cfg Window)

namespace Cert.KernelIdeal.RegionValue
open Cert.KernelIdeal Cert.KernelIdeal.Gen Idealize.ShloMosaic.ValueIdx

variable {F : FTy → Type} [FloatOps F]
variable (V : (c : Dev nD) → (b : Ref sig .tc) → Buf (Elt F) ((c : Thread nD τ).loc b))

/-- The offsets of a whole-block access are all zero. -/
theorem zero_off8 : (![0, 0] : Fin 2 → Nat) = fun _ => 0 := funext fun a => by fin_cases a <;> rfl

/-- The index maps over the 20 grid points: a row-tiled window's block index at point t is (t, 0), the bias cell's is (0, 0). -/
theorem idx_maps8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- A single cell [1,1] broadcast to a column reads the cell everywhere. -/
theorem cell_bcast8 (x : Vec F S1x1 .f32) (h : S1x1.Broadcasts S5000x1) (j : S5000x1.Idx) :
    broadcastTo S5000x1 x h j = x (ix2 (n0 := 1) (n1 := 1) 0 0) :=
  broadcastTo_apply x h j _ fun a => by
    match a with
    | ⟨0, _⟩ => rfl
    | ⟨1, _⟩ => rfl

/-- The body's payload at an index of the block. -/
theorem pay8_apply (x0 x1 x2 : Vec F S5000x1 .f32) (x3 : Vec F S1x1 .f32) (j : S5000x1.Idx) :
    k8_pay1 x0 x1 x2 x3 j = FloatOps.addf (FloatOps.addf (x0 j) (FloatOps.mulf (x1 j) (x2 j))) (x3 (ix2 (n0 := 1) (n1 := 1) 0 0)) := by
  unfold k8_pay1
  simp only [shapeCast_self]
  show FloatOps.addf (FloatOps.addf (x0 j) (FloatOps.mulf (x1 j) (x2 j))) (broadcastTo S5000x1 x3 _ j) = _
  rw [cell_bcast8]

/-- What the region leaves in its output array: the combination of the four input arrays, index by index. -/
abbrev G8 (c : Dev nD) :=
  Cert.Spec.comb1 (F := F) (V c (Pipeline.arrRef spec8 0)) (V c (Pipeline.arrRef spec8 1)) (V c (Pipeline.arrRef spec8 2)) (V c (Pipeline.arrRef spec8 3))

/-- An input window's block at a point reads its array at the block's place. -/
theorem blk8_0 (c : Dev nD) (t : Fin cfg8.N) (y : S5000x1.Idx) :
    iblk8 V c 0 t y = V c (Pipeline.arrRef spec8 0) (((cfg8.win 0).blk t).view.emb y) := rfl
theorem blk8_1 (c : Dev nD) (t : Fin cfg8.N) (y : S5000x1.Idx) :
    iblk8 V c 1 t y = V c (Pipeline.arrRef spec8 1) (((cfg8.win 1).blk t).view.emb y) := rfl
theorem blk8_2 (c : Dev nD) (t : Fin cfg8.N) (y : S5000x1.Idx) :
    iblk8 V c 2 t y = V c (Pipeline.arrRef spec8 2) (((cfg8.win 2).blk t).view.emb y) := rfl
theorem blk8_3 (c : Dev nD) (t : Fin cfg8.N) (y : S1x1.Idx) :
    iblk8 V c 3 t y = V c (Pipeline.arrRef spec8 3) (((cfg8.win 3).blk t).view.emb y) := rfl

/-- What point t writes back is block t of the combination of the input arrays. -/
theorem flushed8_eq (c : Dev nD) (t : Fin cfg8.N) :
    (dat8 V c).flushed 4 t = ((cfg8.win 4).blk t).view.read (Elt F) (G8 V c) := by
  show (cfg8.win 4).cut (grid8.coords t) ((dat8 V c).after 4 t) = _
  rw [after8_4]
  unfold out8_4
  rw [View.canon_unit_zero zero_off8]
  simp only [View.ld_unit_zero (S := S5000x1) zero_off8, View.ld_unit_zero (S := S1x1) zero_off8]
  obtain ⟨e00, e01, e10, e11, e20, e21, e30, e31, e40, e41⟩ := idx_maps8 t
  funext j
  show k8_pay1 (iblk8 V c 0 t) (iblk8 V c 1 t) (iblk8 V c 2 t) (iblk8 V c 3 t) j = G8 V c (((cfg8.win 4).blk t).view.emb j)
  rw [pay8_apply, blk8_0, blk8_1, blk8_2, blk8_3]
  have h0 : ((cfg8.win 0).blk t).view.emb j = ((cfg8.win 4).blk t).view.emb j := by
    funext a; apply Fin.ext
    match a with
    | ⟨0, _⟩ => show win8_0.index t (0 : Fin 2) * 5000 + 1 * (j 0).val = win8_4.index t (0 : Fin 2) * 5000 + 1 * (j 0).val; omega
    | ⟨1, _⟩ => show win8_0.index t (1 : Fin 2) * 1 + 1 * (j 1).val = win8_4.index t (1 : Fin 2) * 1 + 1 * (j 1).val; omega
  have h1 : ((cfg8.win 1).blk t).view.emb j = ((cfg8.win 4).blk t).view.emb j := by
    funext a; apply Fin.ext
    match a with
    | ⟨0, _⟩ => show win8_1.index t (0 : Fin 2) * 5000 + 1 * (j 0).val = win8_4.index t (0 : Fin 2) * 5000 + 1 * (j 0).val; omega
    | ⟨1, _⟩ => show win8_1.index t (1 : Fin 2) * 1 + 1 * (j 1).val = win8_4.index t (1 : Fin 2) * 1 + 1 * (j 1).val; omega
  have h2 : ((cfg8.win 2).blk t).view.emb j = ((cfg8.win 4).blk t).view.emb j := by
    funext a; apply Fin.ext
    match a with
    | ⟨0, _⟩ => show win8_2.index t (0 : Fin 2) * 5000 + 1 * (j 0).val = win8_4.index t (0 : Fin 2) * 5000 + 1 * (j 0).val; omega
    | ⟨1, _⟩ => show win8_2.index t (1 : Fin 2) * 1 + 1 * (j 1).val = win8_4.index t (1 : Fin 2) * 1 + 1 * (j 1).val; omega
  have h3 : ((cfg8.win 3).blk t).view.emb (ix2 (n0 := 1) (n1 := 1) 0 0) = ix2 (n0 := 1) (n1 := 1) 0 0 := by
    funext a; apply Fin.ext
    match a with
    | ⟨0, _⟩ => show win8_3.index t (0 : Fin 2) * 1 + 1 * 0 = 0; omega
    | ⟨1, _⟩ => show win8_3.index t (1 : Fin 2) * 1 + 1 * 0 = 0; omega
  rw [h0, h1, h2, h3]
  rfl

/-- An index of the output array is in point t's block iff each coordinate is in the block's range on its axis. -/
theorem mem_blk8 (t : Fin cfg8.N) (i : S100000x1.Idx) :
    i ∈ ((cfg8.win 4).blk t).view.set ↔ ∀ a : Fin 2, win8_4.index t a * S5000x1.size a ≤ (i a).val ∧ (i a).val < win8_4.index t a * S5000x1.size a + S5000x1.size a := by
  show i ∈ ((View.whole main_v48).slice (win8_4.rect t)).set ↔ _
  rw [View.set_slice_whole, Rect.mem_set_unit]
  exact Iff.rfl

/-- Every row of the output array is in the block of the point that owns it: row r belongs to point r / 5000. -/
theorem cover8 (i : S100000x1.Idx) :
    ∃ t : Fin cfg8.N, (cfg8.win 4).flush t = true ∧ i ∈ ((cfg8.win 4).blk t).view.set := by
  have hi0 : (i 0).val < 100000 := (i 0).isLt
  have hi1 : (i 1).val < 1 := (i 1).isLt
  have hN : cfg8.N = 20 := N_8
  let t : Fin cfg8.N := ⟨(i 0).val / 5000, by rw [hN]; omega⟩
  obtain ⟨e00, e01, e10, e11, e20, e21, e30, e31, e40, e41⟩ := idx_maps8 t
  have ht : t.val = (i 0).val / 5000 := rfl
  refine ⟨t, flush8_4 t, ?_⟩
  rw [mem_blk8]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 1 ≤ (i 1).val ∧ (i 1).val < win8_4.index t (1 : Fin 2) * 1 + 1; omega

/-- The region's output array after its run is the combination of its input arrays as the region finds them. -/
theorem arr8 {F : FTy → Type} [FloatOps F] (V : (c : Dev nD) → (b : Ref sig .tc) → Buf (Elt F) ((c : Thread nD τ).loc b)) (c : Dev nD) :
    (dat8 (F := F) V c).arrAt 4 cfg8.N = Cert.Spec.comb1 (V c (Pipeline.arrRef spec8 0)) (V c (Pipeline.arrRef spec8 1)) (V c (Pipeline.arrRef spec8 2)) (V c (Pipeline.arrRef spec8 3)) :=
  (dat8 V c).arrAt_eq_of_cover 4 (G8 V c) (fun t _ => flushed8_eq V c t) cover8

end Cert.KernelIdeal.RegionValue
end
-- ==== Proof.KernelFold.lean ====
/-
  The kernel program's result, boundary by boundary. Each host stretch is read as the composition of its operations on
  what the boundary before it holds; each region leaves in its output array the specification's function of its input
  arrays as it finds them. Threaded from the launch memory, the result buffer ends at one closed term of the ten argument
  arrays: three graph-convolution layers, each a dense transform, a filled row take along the source indices, the scaling
  by the edge coefficients, a segment sum along the destination indices, and the combination with the self loop and bias.
-/
import proofs.«409193_j64836826301090_2_alg».proof.Proof.KernelKeep
import proofs.«409193_j64836826301090_2_alg».proof.Proof.Take
import proofs.«409193_j64836826301090_2_alg».proof.Proof.Region0
import proofs.«409193_j64836826301090_2_alg».proof.Proof.Region1
import proofs.«409193_j64836826301090_2_alg».proof.Proof.Region2
import proofs.«409193_j64836826301090_2_alg».proof.Proof.Region3
import proofs.«409193_j64836826301090_2_alg».proof.Proof.Region4
import proofs.«409193_j64836826301090_2_alg».proof.Proof.Region5
import proofs.«409193_j64836826301090_2_alg».proof.Proof.Region6
import proofs.«409193_j64836826301090_2_alg».proof.Proof.Region7
import proofs.«409193_j64836826301090_2_alg».proof.Proof.Region8

set_option maxRecDepth 16384

noncomputable section

namespace Cert.KernelIdeal.Fold

open Cert.KernelIdeal Cert.KernelIdeal.Gen Cert.KernelIdeal.Take Cert.KernelIdeal.RegionValue
open Idealize.ShloMosaic Idealize.ShloMosaic.TcCoe Idealize.SL.Sem Idealize.ShloMosaic.StableHlo
open Idealize.ShloMosaic.Pipeline (Dat Cfg Window)

/-! ## The program's value as one term of the arguments -/

/-- The inverse square root of a node's weighted in-degree plus one (the self loop's weight). -/
def dinv (dst : IVec S1200000 32) (ew : FVec Ideal S1200000 .f32) : FVec Ideal S100000 .f32 :=
  Host.rsqrt (addf
    (Host.scatterAdd scatter_S100000_S1200000x1_S1200000_n_0_0_1 (broadcastInDim S100000 ![] bcast_S_S100000 (constant S_ .f32 0x00000000#32))
      (broadcastInDim S1200000x1 ![0] bcast_S1200000_S1200000x1_0 dst) ew)
    (broadcastInDim S100000 ![] bcast_S_S100000 (constant S_ .f32 0x3F800000#32)))

/-- An edge's symmetric normalisation coefficient: dinv[src] · weight · dinv[dst]. -/
def norm (src dst : IVec S1200000 32) (ew : FVec Ideal S1200000 .f32) : FVec Ideal S1200000 .f32 :=
  mulf (mulf (Host.gather gather_S100000_S1200000x1_S1200000_n_0_n_n_0_1_1 (dinv dst ew) (wrapIdx src)) ew)
    (Host.gather gather_S100000_S1200000x1_S1200000_n_0_n_n_0_1_1 (dinv dst ew) (wrapIdx dst))

/-- The edge coefficients as a column. -/
def ncol (src dst : IVec S1200000 32) (ew : FVec Ideal S1200000 .f32) : FVec Ideal S1200000x1 .f32 :=
  shapeCast S1200000x1 (norm src dst ew) shapeCasts_S1200000_S1200000x1

/-- The self-loop coefficients dinv², as a column. -/
def scol (dst : IVec S1200000 32) (ew : FVec Ideal S1200000 .f32) : FVec Ideal S100000x1 .f32 :=
  shapeCast S100000x1 (mulf (dinv dst ew) (dinv dst ew)) shapeCasts_S100000_S100000x1

/-- The segment sum of 64-feature edge rows onto their destination nodes. -/
def agg64 (dst : IVec S1200000 32) (msg : FVec Ideal S1200000x64 .f32) : FVec Ideal S100000x64 .f32 :=
  Host.scatterAdd scatter_S100000x64_S1200000x1_S1200000x64_1_0_0_1 (broadcastInDim S100000x64 ![] bcast_S_S100000x64 (constant S_ .f32 0x00000000#32))
    (broadcastInDim S1200000x1 ![0] bcast_S1200000_S1200000x1_0 dst) msg

/-- The segment sum of one-feature edge rows. -/
def agg1 (dst : IVec S1200000 32) (msg : FVec Ideal S1200000x1 .f32) : FVec Ideal S100000x1 .f32 :=
  Host.scatterAdd scatter_S100000x1_S1200000x1_S1200000x1_1_0_0_1 (broadcastInDim S100000x1 ![] bcast_S_S100000x1 (constant S_ .f32 0x00000000#32))
    (broadcastInDim S1200000x1 ![0] bcast_S1200000_S1200000x1_0 dst) msg

/-- A hidden layer. -/
def layer64 (h : FVec Ideal S100000x64 .f32) (W : FVec Ideal S64x64 .f32) (b : FVec Ideal S64 .f32)
    (src dst : IVec S1200000 32) (ew : FVec Ideal S1200000 .f32) : FVec Ideal S100000x64 .f32 :=
  Cert.Spec.comb64 (F := Ideal) (agg64 dst (Cert.Spec.scale64 (F := Ideal) (take64 (F := Ideal) (Cert.Spec.mm64 h W) src) (ncol src dst ew))) (Cert.Spec.mm64 h W) (scol dst ew)
    (shapeCast S1x64 b shapeCasts_S64_S1x64)

/-- The last layer, one output feature, no activation. -/
def last (h : FVec Ideal S100000x64 .f32) (W : FVec Ideal S64x1 .f32) (b : FVec Ideal S1 .f32)
    (src dst : IVec S1200000 32) (ew : FVec Ideal S1200000 .f32) : FVec Ideal S100000x1 .f32 :=
  Cert.Spec.comb1 (F := Ideal) (agg1 dst (Cert.Spec.scale1 (F := Ideal) (take1 (F := Ideal) (Cert.Spec.mm1 h W) src) (ncol src dst ew))) (Cert.Spec.mm1 h W) (scol dst ew)
    (shapeCast S1x1 b shapeCasts_S1_S1x1)

theorem comb64_congr {a a' b b' : FVec Ideal S100000x64 .f32} {s s' : FVec Ideal S100000x1 .f32} {d d' : FVec Ideal S1x64 .f32}
    (ha : a = a') (hb : b = b') (hs : s = s') (hd : d = d') : Cert.Spec.comb64 (F := Ideal) a b s d = Cert.Spec.comb64 (F := Ideal) a' b' s' d' := by
  subst ha hb hs hd; rfl

theorem comb1_congr {a a' b b' s s' : FVec Ideal S100000x1 .f32} {d d' : FVec Ideal S1x1 .f32}
    (ha : a = a') (hb : b = b') (hs : s = s') (hd : d = d') : Cert.Spec.comb1 (F := Ideal) a b s d = Cert.Spec.comb1 (F := Ideal) a' b' s' d' := by
  subst ha hb hs hd; rfl

/-! ## The filled row take, read off its host stretch at any entry contents -/

theorem ofBuf_toBuf {sig : RefSig} {Val : EltTy → Type} {T : BufTy} (x : TRef sig T) (v : T.Contents Val) :
    x.ofBuf (Val := Val) (x.toBuf (Val := Val) v) = v := by
  obtain ⟨r, rfl, _, _⟩ := x
  rfl

theorem ofBuf_arg1 (h a b) (v : (main_arg1 : Ref sig .tc).ty.Contents (Elt Ideal)) :
    (TRef.of main_arg1 h a b : TRef sig ⟨S1200000, .i32⟩).ofBuf (Val := Elt Ideal) v = (v : IVec S1200000 32) := rfl

theorem toBuf_v26 (h a b) (v : FVec Ideal S1200000x64 .f32) :
    ((TRef.of main_v26 h a b : TRef sig ⟨S1200000x64, .f32⟩).toBuf (Val := Elt Ideal) v : FVec Ideal S1200000x64 .f32) = v := rfl
theorem ofBuf_v25 (h a b) (v : (main_v25 : Ref sig .tc).ty.Contents (Elt Ideal)) :
    (TRef.of main_v25 h a b : TRef sig ⟨S100000x64, .f32⟩).ofBuf (Val := Elt Ideal) v = (v : FVec Ideal S100000x64 .f32) := rfl

set_option maxHeartbeats 4000000 in
theorem take_stretch1 (Wv : Valuation τ sig (Elt Ideal)) :
    StableHlo.after hostOps1 Wv (Proc.devRef .tc main_v26)
      = take64 (F := Ideal) (Wv (Proc.devRef .tc main_v25)) (Wv (Proc.devRef .tc main_arg1)) := by
  after_results_simp
  simp only [ofBuf_toBuf, ofBuf_v25, ofBuf_arg1]
  refine (toBuf_v26 _ _ _ _).trans ?_
  unfold take64 inRange wrapIdx
  rfl

theorem toBuf_v34 (h a b) (v : FVec Ideal S1200000x64 .f32) :
    ((TRef.of main_v34 h a b : TRef sig ⟨S1200000x64, .f32⟩).toBuf (Val := Elt Ideal) v : FVec Ideal S1200000x64 .f32) = v := rfl
theorem ofBuf_v33 (h a b) (v : (main_v33 : Ref sig .tc).ty.Contents (Elt Ideal)) :
    (TRef.of main_v33 h a b : TRef sig ⟨S100000x64, .f32⟩).ofBuf (Val := Elt Ideal) v = (v : FVec Ideal S100000x64 .f32) := rfl

set_option maxHeartbeats 4000000 in
theorem take_stretch4 (Wv : Valuation τ sig (Elt Ideal)) :
    StableHlo.after hostOps4 Wv (Proc.devRef .tc main_v34)
      = take64 (F := Ideal) (Wv (Proc.devRef .tc main_v33)) (Wv (Proc.devRef .tc main_arg1)) := by
  after_results_simp
  simp only [ofBuf_toBuf, ofBuf_v33, ofBuf_arg1]
  refine (toBuf_v34 _ _ _ _).trans ?_
  unfold take64 inRange wrapIdx
  rfl

theorem toBuf_v42 (h a b) (v : FVec Ideal S1200000x1 .f32) :
    ((TRef.of main_v42 h a b : TRef sig ⟨S1200000x1, .f32⟩).toBuf (Val := Elt Ideal) v : FVec Ideal S1200000x1 .f32) = v := rfl
theorem ofBuf_v41 (h a b) (v : (main_v41 : Ref sig .tc).ty.Contents (Elt Ideal)) :
    (TRef.of main_v41 h a b : TRef sig ⟨S100000x1, .f32⟩).ofBuf (Val := Elt Ideal) v = (v : FVec Ideal S100000x1 .f32) := rfl

set_option maxHeartbeats 4000000 in
theorem take_stretch7 (Wv : Valuation τ sig (Elt Ideal)) :
    StableHlo.after hostOps7 Wv (Proc.devRef .tc main_v42)
      = take1 (F := Ideal) (Wv (Proc.devRef .tc main_v41)) (Wv (Proc.devRef .tc main_arg1)) := by
  after_results_simp
  simp only [ofBuf_toBuf, ofBuf_v41, ofBuf_arg1]
  refine (toBuf_v42 _ _ _ _).trans ?_
  unfold take1 inRange wrapIdx
  rfl

variable (m : (ℓ : Loc nD τ sig) → Buf (Elt Ideal) ℓ) (ρ : Dev nD → PrngReg)

/-! ## Before the first region: the coefficient columns -/

set_option maxHeartbeats 4000000 in
theorem W1_v23 (c : Dev nD) : W1 m ρ c (Proc.devRef .tc main_v23) = (ncol (m ((c : Thread nD τ).loc main_arg1)) (m ((c : Thread nD τ).loc main_arg2)) (m ((c : Thread nD τ).loc main_arg3))) := by
  show StableHlo.after hostOps0 _ (Proc.devRef .tc main_v23) = _
  after_results_simp
  rfl

set_option maxHeartbeats 4000000 in
theorem W1_v24 (c : Dev nD) : W1 m ρ c (Proc.devRef .tc main_v24) = (scol (m ((c : Thread nD τ).loc main_arg2)) (m ((c : Thread nD τ).loc main_arg3))) := by
  show StableHlo.after hostOps0 _ (Proc.devRef .tc main_v24) = _
  after_results_simp
  rfl

/-! ## The first layer -/

theorem W2_v25 (c : Dev nD) : W2 m ρ c (Proc.devRef .tc main_v25) = (Cert.Spec.mm64 (m ((c : Thread nD τ).loc main_arg0)) (m ((c : Thread nD τ).loc main_arg4))) :=
  (W2_arr m ρ c 2).trans ((arr0 (V1 m ρ) c).trans (congrArg₂ Cert.Spec.mm64 (W1_arg0 m ρ c) (W1_arg4 m ρ c)))

set_option maxHeartbeats 4000000 in
theorem W3_v26 (c : Dev nD) : W3 m ρ c (Proc.devRef .tc main_v26) = take64 (F := Ideal) (Cert.Spec.mm64 (m ((c : Thread nD τ).loc main_arg0)) (m ((c : Thread nD τ).loc main_arg4))) (m ((c : Thread nD τ).loc main_arg1)) := by
  have h : W3 m ρ c (Proc.devRef .tc main_v26) = take64 (F := Ideal) (W2 m ρ c (Proc.devRef .tc main_v25)) (W2 m ρ c (Proc.devRef .tc main_arg1)) := take_stretch1 (W2 m ρ c)
  rw [h, W2_v25, W2_arg1]

theorem W4_v27 (c : Dev nD) : W4 m ρ c (Proc.devRef .tc main_v27) = Cert.Spec.scale64 (F := Ideal) (take64 (F := Ideal) (Cert.Spec.mm64 (m ((c : Thread nD τ).loc main_arg0)) (m ((c : Thread nD τ).loc main_arg4))) (m ((c : Thread nD τ).loc main_arg1))) (ncol (m ((c : Thread nD τ).loc main_arg1)) (m ((c : Thread nD τ).loc main_arg2)) (m ((c : Thread nD τ).loc main_arg3))) :=
  (W4_arr m ρ c 2).trans ((arr1 (V3 m ρ) c).trans
    (congrArg₂ (Cert.Spec.scale64 (F := Ideal)) (W3_v26 m ρ c) ((W3_v23 m ρ c).trans (W1_v23 m ρ c))))

theorem W5_v30 (c : Dev nD) : W5 m ρ c (Proc.devRef .tc main_v30) = agg64 (m ((c : Thread nD τ).loc main_arg2)) (Cert.Spec.scale64 (F := Ideal) (take64 (F := Ideal) (Cert.Spec.mm64 (m ((c : Thread nD τ).loc main_arg0)) (m ((c : Thread nD τ).loc main_arg4))) (m ((c : Thread nD τ).loc main_arg1))) (ncol (m ((c : Thread nD τ).loc main_arg1)) (m ((c : Thread nD τ).loc main_arg2)) (m ((c : Thread nD τ).loc main_arg3)))) := by
  have h : W5 m ρ c (Proc.devRef .tc main_v30) = agg64 (W4 m ρ c (Proc.devRef .tc main_arg2)) (W4 m ρ c (Proc.devRef .tc main_v27)) := by
    show StableHlo.after hostOps2 _ (Proc.devRef .tc main_v30) = _
    after_results
    rfl
  rw [h, W4_arg2, W4_v27]

theorem W5_v31 (c : Dev nD) : W5 m ρ c (Proc.devRef .tc main_v31) = shapeCast S1x64 (m ((c : Thread nD τ).loc main_arg5)) shapeCasts_S64_S1x64 := by
  have h : W5 m ρ c (Proc.devRef .tc main_v31) = shapeCast S1x64 (W4 m ρ c (Proc.devRef .tc main_arg5)) shapeCasts_S64_S1x64 := by
    show StableHlo.after hostOps2 _ (Proc.devRef .tc main_v31) = _
    after_results
    rfl
  rw [h, W4_arg5]

theorem W6_v32 (c : Dev nD) : W6 m ρ c (Proc.devRef .tc main_v32) = (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) :=
  (W6_arr m ρ c 4).trans ((arr2 (V5 m ρ) c).trans
    (comb64_congr (W5_v30 m ρ c) ((W5_v25 m ρ c).trans (W2_v25 m ρ c)) ((W5_v24 m ρ c).trans (W1_v24 m ρ c)) (W5_v31 m ρ c)))

/-! ## The second layer -/

theorem W7_v33 (c : Dev nD) : W7 m ρ c (Proc.devRef .tc main_v33) = (Cert.Spec.mm64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6))) :=
  (W7_arr m ρ c 2).trans ((arr3 (V6 m ρ) c).trans (congrArg₂ Cert.Spec.mm64 (W6_v32 m ρ c) (W6_arg6 m ρ c)))

set_option maxHeartbeats 4000000 in
theorem W8_v34 (c : Dev nD) : W8 m ρ c (Proc.devRef .tc main_v34) = take64 (F := Ideal) (Cert.Spec.mm64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6))) (m ((c : Thread nD τ).loc main_arg1)) := by
  have h : W8 m ρ c (Proc.devRef .tc main_v34) = take64 (F := Ideal) (W7 m ρ c (Proc.devRef .tc main_v33)) (W7 m ρ c (Proc.devRef .tc main_arg1)) := take_stretch4 (W7 m ρ c)
  rw [h, W7_v33, W7_arg1]

theorem W9_v35 (c : Dev nD) : W9 m ρ c (Proc.devRef .tc main_v35) = Cert.Spec.scale64 (F := Ideal) (take64 (F := Ideal) (Cert.Spec.mm64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6))) (m ((c : Thread nD τ).loc main_arg1))) (ncol (m ((c : Thread nD τ).loc main_arg1)) (m ((c : Thread nD τ).loc main_arg2)) (m ((c : Thread nD τ).loc main_arg3))) :=
  (W9_arr m ρ c 2).trans ((arr4 (V8 m ρ) c).trans
    (congrArg₂ (Cert.Spec.scale64 (F := Ideal)) (W8_v34 m ρ c) ((W8_v23 m ρ c).trans ((W3_v23 m ρ c).trans (W1_v23 m ρ c)))))

theorem W10_v38 (c : Dev nD) : W10 m ρ c (Proc.devRef .tc main_v38) = agg64 (m ((c : Thread nD τ).loc main_arg2)) (Cert.Spec.scale64 (F := Ideal) (take64 (F := Ideal) (Cert.Spec.mm64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6))) (m ((c : Thread nD τ).loc main_arg1))) (ncol (m ((c : Thread nD τ).loc main_arg1)) (m ((c : Thread nD τ).loc main_arg2)) (m ((c : Thread nD τ).loc main_arg3)))) := by
  have h : W10 m ρ c (Proc.devRef .tc main_v38) = agg64 (W9 m ρ c (Proc.devRef .tc main_arg2)) (W9 m ρ c (Proc.devRef .tc main_v35)) := by
    show StableHlo.after hostOps5 _ (Proc.devRef .tc main_v38) = _
    after_results
    rfl
  rw [h, W9_arg2, W9_v35]

theorem W10_v39 (c : Dev nD) : W10 m ρ c (Proc.devRef .tc main_v39) = shapeCast S1x64 (m ((c : Thread nD τ).loc main_arg7)) shapeCasts_S64_S1x64 := by
  have h : W10 m ρ c (Proc.devRef .tc main_v39) = shapeCast S1x64 (W9 m ρ c (Proc.devRef .tc main_arg7)) shapeCasts_S64_S1x64 := by
    show StableHlo.after hostOps5 _ (Proc.devRef .tc main_v39) = _
    after_results
    rfl
  rw [h, W9_arg7]

theorem W11_v40 (c : Dev nD) : W11 m ρ c (Proc.devRef .tc main_v40) = (layer64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6)) (m ((c : Thread nD τ).loc main_arg7)) (m ((c : Thread nD τ).loc main_arg1)) (m ((c : Thread nD τ).loc main_arg2)) (m ((c : Thread nD τ).loc main_arg3))) :=
  (W11_arr m ρ c 4).trans ((arr5 (V10 m ρ) c).trans
    (comb64_congr (W10_v38 m ρ c) ((W10_v33 m ρ c).trans (W7_v33 m ρ c))
      ((W10_v24 m ρ c).trans ((W5_v24 m ρ c).trans (W1_v24 m ρ c))) (W10_v39 m ρ c)))

/-! ## The last layer -/

theorem W12_v41 (c : Dev nD) : W12 m ρ c (Proc.devRef .tc main_v41) = Cert.Spec.mm1 (layer64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6)) (m ((c : Thread nD τ).loc main_arg7)) (m ((c : Thread nD τ).loc main_arg1)) (m ((c : Thread nD τ).loc main_arg2)) (m ((c : Thread nD τ).loc main_arg3))) (m ((c : Thread nD τ).loc main_arg8)) :=
  (W12_arr m ρ c 2).trans ((arr6 (V11 m ρ) c).trans (congrArg₂ Cert.Spec.mm1 (W11_v40 m ρ c) (W11_arg8 m ρ c)))

set_option maxHeartbeats 4000000 in
theorem W13_v42 (c : Dev nD) : W13 m ρ c (Proc.devRef .tc main_v42) = take1 (F := Ideal) (Cert.Spec.mm1 (layer64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6)) (m ((c : Thread nD τ).loc main_arg7)) (m ((c : Thread nD τ).loc main_arg1)) (m ((c : Thread nD τ).loc main_arg2)) (m ((c : Thread nD τ).loc main_arg3))) (m ((c : Thread nD τ).loc main_arg8))) (m ((c : Thread nD τ).loc main_arg1)) := by
  have h : W13 m ρ c (Proc.devRef .tc main_v42) = take1 (F := Ideal) (W12 m ρ c (Proc.devRef .tc main_v41)) (W12 m ρ c (Proc.devRef .tc main_arg1)) := take_stretch7 (W12 m ρ c)
  rw [h, W12_v41, W12_arg1]

theorem W14_v43 (c : Dev nD) : W14 m ρ c (Proc.devRef .tc main_v43) = Cert.Spec.scale1 (F := Ideal) (take1 (F := Ideal) (Cert.Spec.mm1 (layer64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6)) (m ((c : Thread nD τ).loc main_arg7)) (m ((c : Thread nD τ).loc main_arg1)) (m ((c : Thread nD τ).loc main_arg2)) (m ((c : Thread nD τ).loc main_arg3))) (m ((c : Thread nD τ).loc main_arg8))) (m ((c : Thread nD τ).loc main_arg1))) (ncol (m ((c : Thread nD τ).loc main_arg1)) (m ((c : Thread nD τ).loc main_arg2)) (m ((c : Thread nD τ).loc main_arg3))) :=
  (W14_arr m ρ c 2).trans ((arr7 (V13 m ρ) c).trans
    (congrArg₂ (Cert.Spec.scale1 (F := Ideal)) (W13_v42 m ρ c) ((W13_v23 m ρ c).trans ((W8_v23 m ρ c).trans ((W3_v23 m ρ c).trans (W1_v23 m ρ c))))))

theorem W15_v46 (c : Dev nD) : W15 m ρ c (Proc.devRef .tc main_v46) = agg1 (m ((c : Thread nD τ).loc main_arg2)) (Cert.Spec.scale1 (F := Ideal) (take1 (F := Ideal) (Cert.Spec.mm1 (layer64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6)) (m ((c : Thread nD τ).loc main_arg7)) (m ((c : Thread nD τ).loc main_arg1)) (m ((c : Thread nD τ).loc main_arg2)) (m ((c : Thread nD τ).loc main_arg3))) (m ((c : Thread nD τ).loc main_arg8))) (m ((c : Thread nD τ).loc main_arg1))) (ncol (m ((c : Thread nD τ).loc main_arg1)) (m ((c : Thread nD τ).loc main_arg2)) (m ((c : Thread nD τ).loc main_arg3)))) := by
  have h : W15 m ρ c (Proc.devRef .tc main_v46) = agg1 (W14 m ρ c (Proc.devRef .tc main_arg2)) (W14 m ρ c (Proc.devRef .tc main_v43)) := by
    show StableHlo.after hostOps8 _ (Proc.devRef .tc main_v46) = _
    after_results
    rfl
  rw [h, W14_arg2, W14_v43]

theorem W15_v47 (c : Dev nD) : W15 m ρ c (Proc.devRef .tc main_v47) = shapeCast S1x1 (m ((c : Thread nD τ).loc main_arg9)) shapeCasts_S1_S1x1 := by
  have h : W15 m ρ c (Proc.devRef .tc main_v47) = shapeCast S1x1 (W14 m ρ c (Proc.devRef .tc main_arg9)) shapeCasts_S1_S1x1 := by
    show StableHlo.after hostOps8 _ (Proc.devRef .tc main_v47) = _
    after_results
    rfl
  rw [h, W14_arg9]

theorem W16_v48 (c : Dev nD) : W16 m ρ c (Proc.devRef .tc main_v48) = last (layer64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6)) (m ((c : Thread nD τ).loc main_arg7)) (m ((c : Thread nD τ).loc main_arg1)) (m ((c : Thread nD τ).loc main_arg2)) (m ((c : Thread nD τ).loc main_arg3))) (m ((c : Thread nD τ).loc main_arg8)) (m ((c : Thread nD τ).loc main_arg9)) (m ((c : Thread nD τ).loc main_arg1)) (m ((c : Thread nD τ).loc main_arg2)) (m ((c : Thread nD τ).loc main_arg3)) :=
  (W16_arr m ρ c 4).trans ((arr8 (V15 m ρ) c).trans
    (comb1_congr (W15_v46 m ρ c) ((W15_v41 m ρ c).trans (W12_v41 m ρ c))
      ((W15_v24 m ρ c).trans ((W10_v24 m ρ c).trans ((W5_v24 m ρ c).trans (W1_v24 m ρ c)))) (W15_v47 m ρ c)))

/-- THE RESULT: the result buffer at the last boundary is the three-layer network of the argument arrays. -/
theorem W17_v49 (c : Dev nD) : W17 m ρ c (Proc.devRef .tc main_v49)
    = shapeCast S100000 (last (layer64 (layer64 (m ((c : Thread nD τ).loc main_arg0)) (m ((c : Thread nD τ).loc main_arg4)) (m ((c : Thread nD τ).loc main_arg5)) (m ((c : Thread nD τ).loc main_arg1)) (m ((c : Thread nD τ).loc main_arg2)) (m ((c : Thread nD τ).loc main_arg3))) (m ((c : Thread nD τ).loc main_arg6)) (m ((c : Thread nD τ).loc main_arg7)) (m ((c : Thread nD τ).loc main_arg1)) (m ((c : Thread nD τ).loc main_arg2)) (m ((c : Thread nD τ).loc main_arg3))) (m ((c : Thread nD τ).loc main_arg8)) (m ((c : Thread nD τ).loc main_arg9)) (m ((c : Thread nD τ).loc main_arg1)) (m ((c : Thread nD τ).loc main_arg2)) (m ((c : Thread nD τ).loc main_arg3))) shapeCasts_S100000x1_S100000 := by
  have h : W17 m ρ c (Proc.devRef .tc main_v49) = shapeCast S100000 (W16 m ρ c (Proc.devRef .tc main_v48)) shapeCasts_S100000x1_S100000 := by
    show StableHlo.after hostOps9 _ (Proc.devRef .tc main_v49) = _
    after_results
    rfl
  rw [h, W16_v48]

end Cert.KernelIdeal.Fold

end
-- ==== Proof.RefSpec.lean ====
/-
  The reference's whole-array operations of one layer, each read at an index: its matrix products are the
  specification's sums, and its broadcast-multiply-add chains are the specification's pointwise formulas.
-/
import proofs.«409193_j64836826301090_2_alg».proof.Proof.Gen.ReferenceIdeal.Read
import proofs.«409193_j64836826301090_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.ReferenceIdeal.RefSpec

open Cert.ReferenceIdeal Cert.ReferenceIdeal.Gen
open Cert.ReferenceIdeal.Read

variable {F : FTy → Type} [FloatOps F]

/-- A length-`n` vector broadcast along a new trailing unit axis is its reshape to a column: both read the
    operand at the row coordinate. -/
private theorem col_eq {α : Type} {n : Nat} (hb : (⟨1, ![n]⟩ : Shape).BroadcastsInDim ⟨2, ![n, 1]⟩ ![0])
    (hc : (⟨1, ![n]⟩ : Shape).ShapeCasts ⟨2, ![n, 1]⟩) (x : (⟨1, ![n]⟩ : Shape).Idx → α) :
    broadcastInDim ⟨2, ![n, 1]⟩ ![0] hb x = shapeCast ⟨2, ![n, 1]⟩ x hc := by
  funext i
  have h0 : (i 0).val < n := (i 0).isLt
  have h1 : (i 1).val < 1 := (i 1).isLt
  have e1 := broadcastInDim_apply ![0] hb x i (ix1 (i 0 : Fin n)) (fun a => match a with
    | ⟨0, _⟩ => by
      show (i 0).val = if n = 1 then 0 else (i 0).val
      split
      · omega
      · rfl)
  have e2 := shapeCast_apply x hc i (ix1 (i 0 : Fin n)) (by
    rw [Shape.rowMajor_val_two, Shape.rowMajor_val_one]
    show (i 0).val = (i 0).val * 1 + (i 1).val
    omega)
  exact e1.trans e2.symm

/-- A length-`n` vector broadcast along a new leading unit axis is its reshape to a row: both read the
    operand at the column coordinate. -/
private theorem row_eq {α : Type} {n : Nat} (hb : (⟨1, ![n]⟩ : Shape).BroadcastsInDim ⟨2, ![1, n]⟩ ![1])
    (hc : (⟨1, ![n]⟩ : Shape).ShapeCasts ⟨2, ![1, n]⟩) (x : (⟨1, ![n]⟩ : Shape).Idx → α) :
    broadcastInDim ⟨2, ![1, n]⟩ ![1] hb x = shapeCast ⟨2, ![1, n]⟩ x hc := by
  funext i
  have h0 : (i 0).val < 1 := (i 0).isLt
  have h1 : (i 1).val < n := (i 1).isLt
  have e1 := broadcastInDim_apply ![1] hb x i (ix1 (i 1 : Fin n)) (fun a => match a with
    | ⟨0, _⟩ => by
      show (i 1).val = if n = 1 then 0 else (i 1).val
      split
      · omega
      · rfl)
  have e2 := shapeCast_apply x hc i (ix1 (i 1 : Fin n)) (by
    rw [Shape.rowMajor_val_two, Shape.rowMajor_val_one]
    show (i 1).val = (i 0).val * n + (i 1).val
    have h00 : (i 0).val = 0 := by omega
    rw [h00, Nat.zero_mul, Nat.zero_add])
  exact e1.trans e2.symm

/-- the reference's dense transform into 64 features is the specification's matrix product -/
theorem dot64_eq (h : FVec Ideal S100000x64 .f32) (W : FVec Ideal S64x64 .f32) :
    Host.dotGeneral dot_S100000x64_S64x64_S100000x64_1_0_0_1_n_n none h W = Cert.Spec.mm64 h W := by
  funext i
  refine (val_main_v23_apply h W i).trans ?_
  show _ = ∑ k : Fin 64, h (ix2 (n0 := 100000) (n1 := 64) (i 0) k) * W (ix2 (n0 := 64) (n1 := 64) k (i 1))
  refine Finset.sum_congr rfl fun k _ => ?_
  have el : lidx_main_v23 i k = ix2 (n0 := 100000) (n1 := 64) (i 0) k := funext fun a => Fin.ext (by
    match a with
    | ⟨0, _⟩ => rfl
    | ⟨1, _⟩ => rfl)
  have er : ridx_main_v23 i k = ix2 (n0 := 64) (n1 := 64) k (i 1) := funext fun a => Fin.ext (by
    match a with
    | ⟨0, _⟩ => rfl
    | ⟨1, _⟩ => rfl)
  rw [el, er]

/-- the same into one feature -/
theorem dot1_eq (h : FVec Ideal S100000x64 .f32) (W : FVec Ideal S64x1 .f32) :
    Host.dotGeneral dot_S100000x64_S64x1_S100000x1_1_0_0_1_n_n none h W = Cert.Spec.mm1 h W := by
  funext i
  show Host.dotGeneral dot_S100000x64_S64x1_S100000x1_1_0_0_1_n_n none h W i
    = ∑ k : Fin 64, h (ix2 (n0 := 100000) (n1 := 64) (i 0) k) * W (ix2 (n0 := 64) (n1 := 1) k (i 1))
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k)
      = ix2 (n0 := 100000) (n1 := 64) (i 0) k := funext fun a => Fin.ext (by
    match a with
    | ⟨0, _⟩ => exact lhs_main_v67_0 _ _
    | ⟨1, _⟩ => exact (lhs_main_v67_1 _ _).trans hk)
  have er : dot_S100000x64_S64x1_S100000x1_1_0_0_1_n_n.rhsIdx i ((ValueIdx.contrEquiv1 dot_S100000x64_S64x1_S100000x1_1_0_0_1_n_n 64 rfl rfl).symm k)
      = ix2 (n0 := 64) (n1 := 1) k (i 1) := funext fun a => Fin.ext (by
    match a with
    | ⟨0, _⟩ => exact (rhs_main_v67_0 _ _).trans hk
    | ⟨1, _⟩ => exact rhs_main_v67_1 _ _)
  rw [el, er]

/-- a gathered edge table times the coefficient column broadcast along the features -/
theorem scale64_eq (g : FVec F S1200000x64 .f32) (n : FVec F S1200000x1 .f32) :
    mulf g (broadcastInDim S1200000x64 ![0, 1] bcast_S1200000x1_S1200000x64_0_1 n) = Cert.Spec.scale64 g n := by
  funext i
  have en : broadcastInDim S1200000x64 ![0, 1] bcast_S1200000x1_S1200000x64_0_1 n i
      = n (ix2 (n0 := 1200000) (n1 := 1) (i 0) 0) :=
    broadcastInDim_apply _ bcast_S1200000x1_S1200000x64_0_1 n i _ (fun a => match a with
      | ⟨0, _⟩ => by show (i 0).val = if (1200000 : Nat) = 1 then 0 else (i 0).val; rw [if_neg (by decide)]
      | ⟨1, _⟩ => by show 0 = if (1 : Nat) = 1 then 0 else (i 1).val; rw [if_pos rfl])
  show FloatOps.mulf (g i) (broadcastInDim S1200000x64 ![0, 1] bcast_S1200000x1_S1200000x64_0_1 n i)
    = FloatOps.mulf (g i) (n (ix2 (n0 := 1200000) (n1 := 1) (i 0) 0))
  rw [en]

theorem scale1_eq (g n : FVec F S1200000x1 .f32) : mulf g n = Cert.Spec.scale1 g n := by
  rfl

/-- a hidden layer's combination -/
theorem comb64_eq (agg h2 : FVec F S100000x64 .f32) (s : FVec F S100000x1 .f32) (b : FVec F S1x64 .f32) :
    maximumf (addf (addf agg (mulf h2 (broadcastInDim S100000x64 ![0, 1] bcast_S100000x1_S100000x64_0_1 s)))
        (broadcastInDim S100000x64 ![0, 1] bcast_S1x64_S100000x64_0_1 b))
      (broadcastInDim S100000x64 ![] bcast_S_S100000x64 (constant S_ .f32 0x00000000#32))
    = Cert.Spec.comb64 agg h2 s b := by
  funext i
  have es : broadcastInDim S100000x64 ![0, 1] bcast_S100000x1_S100000x64_0_1 s i
      = s (ix2 (n0 := 100000) (n1 := 1) (i 0) 0) :=
    broadcastInDim_apply _ bcast_S100000x1_S100000x64_0_1 s i _ (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])
  have eb : broadcastInDim S100000x64 ![0, 1] bcast_S1x64_S100000x64_0_1 b i
      = b (ix2 (n0 := 1) (n1 := 64) 0 (i 1)) :=
    broadcastInDim_apply _ bcast_S1x64_S100000x64_0_1 b i _ (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  show FloatOps.maximumf
      (FloatOps.addf (FloatOps.addf (agg i)
          (FloatOps.mulf (h2 i) (broadcastInDim S100000x64 ![0, 1] bcast_S100000x1_S100000x64_0_1 s i)))
        (broadcastInDim S100000x64 ![0, 1] bcast_S1x64_S100000x64_0_1 b i))
      (FloatOps.ofBits .f32 0x00000000#32)
    = FloatOps.maximumf
      (FloatOps.addf (FloatOps.addf (agg i) (FloatOps.mulf (h2 i) (s (ix2 (n0 := 100000) (n1 := 1) (i 0) 0))))
        (b (ix2 (n0 := 1) (n1 := 64) 0 (i 1))))
      (FloatOps.ofBits .f32 0x00000000#32)
  rw [es, eb]

/-- the last layer's combination -/
theorem comb1_eq (agg h2 s : FVec F S100000x1 .f32) (b : FVec F S1x1 .f32) :
    addf (addf agg (mulf h2 s)) (broadcastInDim S100000x1 ![0, 1] bcast_S1x1_S100000x1_0_1 b) = Cert.Spec.comb1 agg h2 s b := by
  funext i
  have eb : broadcastInDim S100000x1 ![0, 1] bcast_S1x1_S100000x1_0_1 b i
      = b (ix2 (n0 := 1) (n1 := 1) 0 0) :=
    broadcastInDim_apply _ bcast_S1x1_S100000x1_0_1 b i _ (fun a => match a with
      | ⟨0, _⟩ => by show 0 = if (1 : Nat) = 1 then 0 else (i 0).val; rw [if_pos rfl]
      | ⟨1, _⟩ => by show 0 = if (1 : Nat) = 1 then 0 else (i 1).val; rw [if_pos rfl])
  show FloatOps.addf (FloatOps.addf (agg i) (FloatOps.mulf (h2 i) (s i)))
      (broadcastInDim S100000x1 ![0, 1] bcast_S1x1_S100000x1_0_1 b i)
    = FloatOps.addf (FloatOps.addf (agg i) (FloatOps.mulf (h2 i) (s i))) (b (ix2 (n0 := 1) (n1 := 1) 0 0))
  rw [eb]

/-- a vector laid out as a column: the broadcast along a new trailing unit axis is the reshape -/
theorem colE_eq {α : Type} (n : S1200000.Idx → α) :
    broadcastInDim S1200000x1 ![0] bcast_S1200000_S1200000x1_0 n = shapeCast S1200000x1 n (by decide) := by
  exact col_eq (n := 1200000) _ _ n
theorem colN_eq {α : Type} (n : S100000.Idx → α) :
    broadcastInDim S100000x1 ![0] bcast_S100000_S100000x1_0 n = shapeCast S100000x1 n (by decide) := by
  exact col_eq (n := 100000) _ _ n
/-- a vector laid out as a row -/
theorem row64_eq {α : Type} (b : S64.Idx → α) :
    broadcastInDim S1x64 ![1] bcast_S64_S1x64_1 b = shapeCast S1x64 b (by decide) := by
  exact row_eq (n := 64) _ _ b
theorem row1_eq {α : Type} (b : S1.Idx → α) :
    broadcastInDim S1x1 ![1] bcast_S1_S1x1_1 b = shapeCast S1x1 b (by decide) := by
  exact row_eq (n := 1) _ _ b

end Cert.ReferenceIdeal.RefSpec

end
-- ==== Proof.TakeInRange.lean ====
/-
  Under the precondition every source index is a node id, 0 ≤ src < 100000; then the wrapped index is the index
  itself, every edge's in-range flag is set, and the filled take is the plain row gather.
-/
import proofs.«409193_j64836826301090_2_alg».proof.Proof.Take
import proofs.«409193_j64836826301090_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Take

open Cert.KernelIdeal Cert.KernelIdeal.Gen Idealize.ShloMosaic Idealize.ShloMosaic.ValueIdx

variable {F : FTy → Type} [FloatOps F]

/-- The rank-zero shape has one index. -/
private instance : Subsingleton (⟨0, ![]⟩ : Shape).Idx := ⟨fun a b => funext fun d => d.elim0⟩

/-- A one-bit word that is not 1 is 0. -/
private theorem bit_eq_zero_of_ne_one (c : BitVec 1) (h : c ≠ 1#1) : c = 0#1 := by
  revert c; decide

/-- A left fold by `and` from 1 that meets only 1s is 1. -/
private theorem foldl_andi_ones {ι : Type} (l : List ι) :
    l.foldl (fun r (_ : ι) => IntOp.andi r 1#1) 1#1 = 1#1 := by
  induction l with
  | nil => rfl
  | cons a l ih =>
    show l.foldl (fun r (_ : ι) => IntOp.andi r 1#1) (IntOp.andi 1#1 1#1) = 1#1
    rw [show IntOp.andi 1#1 1#1 = 1#1 from by decide]
    exact ih

/-- With every index nonnegative the wrap leaves it alone: the wrapped column reads the index itself. -/
private theorem wrapIdx_apply (src : IVec S1200000 32) (h : ∀ e : S1200000.Idx, 0 ≤ (src e).toInt ∧ (src e).toInt < 100000)
    (i : S1200000x1.Idx) : wrapIdx src i = src (ix1 (i 0 : Fin 1200000)) := by
  unfold wrapIdx
  refine (broadcastInDim_apply ![0] bcast_S1200000_S1200000x1_0 _ i (ix1 (i 0 : Fin 1200000)) (fun a => match a with
    | ⟨0, _⟩ => by show (i 0).val = if (1200000 : Nat) = 1 then 0 else (i 0).val; rw [if_neg (by decide)])).trans ?_
  have hne : IntOp.cmpi .slt (src (ix1 (i 0 : Fin 1200000))) 0#32 ≠ 1#1 := fun hc => by
    have h1 := IntOp.cmpi_slt.1 hc
    have h2 := (h (ix1 (i 0 : Fin 1200000))).1
    have h3 : (0#32 : BitVec 32).toInt = 0 := by decide
    omega
  show Scalar.select (IntOp.cmpi .slt (src (ix1 (i 0 : Fin 1200000))) 0#32) _ _ = _
  rw [bit_eq_zero_of_ne_one _ hne]
  exact select_zero _ _

/-- The precondition's last conjunct, decoded: every source index is in [0, 100000) as a signed word. -/
theorem src_in_range (a0 : FVec F Cert.Pre_finite_inputs.S100000x64 .f32) (a1 a2 : IVec Cert.Pre_finite_inputs.S1200000 32)
    (a3 : FVec F Cert.Pre_finite_inputs.S1200000 .f32) (a4 : FVec F Cert.Pre_finite_inputs.S64x64 .f32) (a5 : FVec F Cert.Pre_finite_inputs.S64 .f32)
    (a6 : FVec F Cert.Pre_finite_inputs.S64x64 .f32) (a7 : FVec F Cert.Pre_finite_inputs.S64 .f32) (a8 : FVec F Cert.Pre_finite_inputs.S64x1 .f32)
    (a9 : FVec F Cert.Pre_finite_inputs.S1 .f32)
    (h : Cert.Pre_finite_inputs.fn (F := F) a0 a1 a2 a3 a4 a5 a6 a7 a8 a9 = fun _ => 1#1) :
    ∀ e : S1200000.Idx, 0 ≤ (a1 e).toInt ∧ (a1 e).toInt < 100000 := by
  have h0 := congrFun h ValueIdx.ix0
  dsimp only [Cert.Pre_finite_inputs.fn, Cert.Pre_finite_inputs.fn_part1, Cert.Pre_finite_inputs.fn_part2] at h0
  have h44 := (IntOp.andi_eq_one.1 h0).2
  intro e
  have he := IntOp.andi_eq_one.1 (Host.reduce_andi_all _ _ _ _ _ h44 e)
  have h1 := IntOp.cmpi_sge.1 he.1
  have h2 := IntOp.cmpi_slt.1 he.2
  have z0 : (0#32 : BitVec 32).toInt = 0 := by decide
  have z1 : (100000#32 : BitVec 32).toInt = 100000 := by decide
  exact ⟨z0 ▸ h1, z1 ▸ h2⟩

/-- With every index a node id, every edge's in-range flag is set. -/
theorem inRange_eq_one (src : IVec S1200000 32) (h : ∀ e : S1200000.Idx, 0 ≤ (src e).toInt ∧ (src e).toInt < 100000) :
    inRange (wrapIdx src) = fun _ => 1#1 := by
  have hx : andi (cmpi .sge (wrapIdx src) (broadcastInDim S1200000x1 ![] bcast_S_S1200000x1 (constantI S_ 32 0#32)))
      (cmpi .sle (wrapIdx src) (broadcastInDim S1200000x1 ![0, 1] bcast_S1x1_S1200000x1_0_1
        (broadcastInDim S1x1 ![1] bcast_S1_S1x1_1 (constantI S1 32 99999#32)))) = fun _ => 1#1 := by
    funext i
    have hb := h (ix1 (i 0 : Fin 1200000))
    have z0 : (0#32 : BitVec 32).toInt = 0 := by decide
    have z1 : (99999#32 : BitVec 32).toInt = 99999 := by decide
    have h1 : IntOp.cmpi .sge (wrapIdx src i) 0#32 = 1#1 := IntOp.cmpi_sge.2 (by
      rw [wrapIdx_apply src h i, z0]; exact hb.1)
    have h2 : IntOp.cmpi .sle (wrapIdx src i) 99999#32 = 1#1 := IntOp.cmpi_sle.2 (by
      rw [wrapIdx_apply src h i, z1]; omega)
    show IntOp.andi (IntOp.cmpi .sge (wrapIdx src i) 0#32) (IntOp.cmpi .sle (wrapIdx src i) 99999#32) = 1#1
    rw [h1, h2]
    decide
  unfold inRange
  rw [hx]
  funext j
  rw [Host.reduce_eq_foldl]
  exact foldl_andi_ones _

theorem take64_eq_gather (x : FVec F S100000x64 .f32) (src : IVec S1200000 32)
    (h : ∀ e : S1200000.Idx, 0 ≤ (src e).toInt ∧ (src e).toInt < 100000) :
    take64 x src = Host.gather gather_S100000x64_S1200000x1_S1200000x64_1_0_n_n_0_1_164 x (wrapIdx src) := by
  unfold take64
  rw [inRange_eq_one src h]
  funext i
  exact select_one _ _

theorem take1_eq_gather (x : FVec F S100000x1 .f32) (src : IVec S1200000 32)
    (h : ∀ e : S1200000.Idx, 0 ≤ (src e).toInt ∧ (src e).toInt < 100000) :
    take1 x src = Host.gather gather_S100000x1_S1200000x1_S1200000x1_1_0_n_n_0_1_11 x (wrapIdx src) := by
  unfold take1
  rw [inRange_eq_one src h]
  funext i
  exact select_one _ _

end Cert.KernelIdeal.Take

end
-- ==== Proof.Bridge.lean ====
/-
  The reference's result is the kernel program's: layer by layer the reference's dense product, broadcast products, sums and
  maximum are the specification's index-by-index functions, the shared gathers and segment sums are the same operations, and
  where every source index is a node id the kernel's filled row take is the plain gather the reference performs.
-/
import proofs.«409193_j64836826301090_2_alg».proof.Proof.KernelFold
import proofs.«409193_j64836826301090_2_alg».proof.Proof.RefSpec
import proofs.«409193_j64836826301090_2_alg».proof.Proof.TakeInRange

set_option maxRecDepth 16384

noncomputable section

namespace Cert.Bridge

open Idealize.ShloMosaic
open Cert.ReferenceIdeal Cert.ReferenceIdeal.Gen

/-! ## The reference's term, layer by layer -/

/-- The inverse square root of a node's weighted in-degree plus one. -/
def dinvR (dst : IVec S1200000 32) (ew : FVec Ideal S1200000 .f32) : FVec Ideal S100000 .f32 :=
  Host.rsqrt (addf
    (Host.scatterAdd scatter_S100000_S1200000x1_S1200000_n_0_0_1 (broadcastInDim S100000 ![] bcast_S_S100000 (constant S_ .f32 0x00000000#32))
      (broadcastInDim S1200000x1 ![0] bcast_S1200000_S1200000x1_0 dst) ew)
    (broadcastInDim S100000 ![] bcast_S_S100000 (constant S_ .f32 0x3F800000#32)))

/-- An index column with negative indices wrapped once. -/
def wrapR (i : IVec S1200000 32) : IVec S1200000x1 32 :=
  broadcastInDim S1200000x1 ![0] bcast_S1200000_S1200000x1_0
    (select (cmpi .slt i (broadcastInDim S1200000 ![] bcast_S_S1200000 (constantI S_ 32 0#32)))
      (addi i (broadcastInDim S1200000 ![] bcast_S_S1200000 (constantI S_ 32 100000#32))) i)

/-- An edge's coefficient dinv[src] · weight · dinv[dst]. -/
def normR (src dst : IVec S1200000 32) (ew : FVec Ideal S1200000 .f32) : FVec Ideal S1200000 .f32 :=
  mulf (mulf (Host.gather gather_S100000_S1200000x1_S1200000_n_0_n_n_0_1_1 (dinvR dst ew) (wrapR src)) ew)
    (Host.gather gather_S100000_S1200000x1_S1200000_n_0_n_n_0_1_1 (dinvR dst ew) (wrapR dst))

/-- A hidden layer as the reference spells it. -/
def layerR (h : FVec Ideal S100000x64 .f32) (W : FVec Ideal S64x64 .f32) (b : FVec Ideal S64 .f32)
    (src dst : IVec S1200000 32) (ew : FVec Ideal S1200000 .f32) : FVec Ideal S100000x64 .f32 :=
  maximumf
    (addf
      (addf
        (Host.scatterAdd scatter_S100000x64_S1200000x1_S1200000x64_1_0_0_1
          (broadcastInDim S100000x64 ![] bcast_S_S100000x64 (constant S_ .f32 0x00000000#32))
          (broadcastInDim S1200000x1 ![0] bcast_S1200000_S1200000x1_0 dst)
          (mulf
            (Host.gather gather_S100000x64_S1200000x1_S1200000x64_1_0_n_n_0_1_164
              (Host.dotGeneral dot_S100000x64_S64x64_S100000x64_1_0_0_1_n_n none h W) (wrapR src))
            (broadcastInDim S1200000x64 ![0, 1] bcast_S1200000x1_S1200000x64_0_1
              (broadcastInDim S1200000x1 ![0] bcast_S1200000_S1200000x1_0 (normR src dst ew)))))
        (mulf (Host.dotGeneral dot_S100000x64_S64x64_S100000x64_1_0_0_1_n_n none h W)
          (broadcastInDim S100000x64 ![0, 1] bcast_S100000x1_S100000x64_0_1
            (broadcastInDim S100000x1 ![0] bcast_S100000_S100000x1_0 (mulf (dinvR dst ew) (dinvR dst ew))))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The last layer as the reference spells it. -/
def lastR (h : FVec Ideal S100000x64 .f32) (W : FVec Ideal S64x1 .f32) (b : FVec Ideal S1 .f32)
    (src dst : IVec S1200000 32) (ew : FVec Ideal S1200000 .f32) : FVec Ideal S100000x1 .f32 :=
  addf
    (addf
      (Host.scatterAdd scatter_S100000x1_S1200000x1_S1200000x1_1_0_0_1
        (broadcastInDim S100000x1 ![] bcast_S_S100000x1 (constant S_ .f32 0x00000000#32))
        (broadcastInDim S1200000x1 ![0] bcast_S1200000_S1200000x1_0 dst)
        (mulf
          (Host.gather gather_S100000x1_S1200000x1_S1200000x1_1_0_n_n_0_1_11
            (Host.dotGeneral dot_S100000x64_S64x1_S100000x1_1_0_0_1_n_n none h W) (wrapR src))
          (broadcastInDim S1200000x1 ![0] bcast_S1200000_S1200000x1_0 (normR src dst ew))))
      (mulf (Host.dotGeneral dot_S100000x64_S64x1_S100000x1_1_0_0_1_n_n none h W)
        (broadcastInDim S100000x1 ![0] bcast_S100000_S100000x1_0 (mulf (dinvR dst ew) (dinvR dst ew)))))
    (broadcastInDim S100000x1 ![0, 1] bcast_S1x1_S100000x1_0_1 (broadcastInDim S1x1 ![1] bcast_S1_S1x1_1 b))

/-- The reference run's result term is the three layers composed. -/
theorem res_eq (m : (ℓ : Loc nD τ sig) → Buf (Elt Ideal) ℓ) (c : Dev nD) :
    Cert.ReferenceIdeal.Value.res_main_v86 (F := Ideal) m c
      = shapeCast S100000
          (lastR
            (layerR
              (layerR (m ((c.tc : Thread nD τ).loc main_arg0)) (m ((c.tc : Thread nD τ).loc main_arg4)) (m ((c.tc : Thread nD τ).loc main_arg5))
                (m ((c.tc : Thread nD τ).loc main_arg1)) (m ((c.tc : Thread nD τ).loc main_arg2)) (m ((c.tc : Thread nD τ).loc main_arg3)))
              (m ((c.tc : Thread nD τ).loc main_arg6)) (m ((c.tc : Thread nD τ).loc main_arg7))
              (m ((c.tc : Thread nD τ).loc main_arg1)) (m ((c.tc : Thread nD τ).loc main_arg2)) (m ((c.tc : Thread nD τ).loc main_arg3)))
            (m ((c.tc : Thread nD τ).loc main_arg8)) (m ((c.tc : Thread nD τ).loc main_arg9))
            (m ((c.tc : Thread nD τ).loc main_arg1)) (m ((c.tc : Thread nD τ).loc main_arg2)) (m ((c.tc : Thread nD τ).loc main_arg3)))
          shapeCasts_S100000x1_S100000 := rfl

/-! ## Each layer is the kernel program's -/

theorem dinv_eq (dst : IVec S1200000 32) (ew : FVec Ideal S1200000 .f32) : dinvR dst ew = Cert.KernelIdeal.Fold.dinv dst ew := rfl

theorem wrap_eq (i : IVec S1200000 32) : wrapR i = Cert.KernelIdeal.Take.wrapIdx i := rfl

theorem norm_eq (src dst : IVec S1200000 32) (ew : FVec Ideal S1200000 .f32) : normR src dst ew = Cert.KernelIdeal.Fold.norm src dst ew := rfl

theorem layerR_eq (h : FVec Ideal S100000x64 .f32) (W : FVec Ideal S64x64 .f32) (b : FVec Ideal S64 .f32)
    (src dst : IVec S1200000 32) (ew : FVec Ideal S1200000 .f32)
    (hr : ∀ e : S1200000.Idx, 0 ≤ (src e).toInt ∧ (src e).toInt < 100000) :
    layerR h W b src dst ew = Cert.KernelIdeal.Fold.layer64 h W b src dst ew := by
  unfold layerR Cert.KernelIdeal.Fold.layer64
  rw [Cert.ReferenceIdeal.RefSpec.comb64_eq, Cert.ReferenceIdeal.RefSpec.scale64_eq, Cert.ReferenceIdeal.RefSpec.dot64_eq,
    Cert.ReferenceIdeal.RefSpec.colE_eq (normR src dst ew), Cert.ReferenceIdeal.RefSpec.colN_eq (mulf (dinvR dst ew) (dinvR dst ew)),
    Cert.ReferenceIdeal.RefSpec.row64_eq b, Cert.KernelIdeal.Take.take64_eq_gather (F := Ideal) _ src hr]
  rfl

theorem lastR_eq (h : FVec Ideal S100000x64 .f32) (W : FVec Ideal S64x1 .f32) (b : FVec Ideal S1 .f32)
    (src dst : IVec S1200000 32) (ew : FVec Ideal S1200000 .f32)
    (hr : ∀ e : S1200000.Idx, 0 ≤ (src e).toInt ∧ (src e).toInt < 100000) :
    lastR h W b src dst ew = Cert.KernelIdeal.Fold.last h W b src dst ew := by
  unfold lastR Cert.KernelIdeal.Fold.last
  rw [Cert.ReferenceIdeal.RefSpec.comb1_eq, Cert.ReferenceIdeal.RefSpec.scale1_eq, Cert.ReferenceIdeal.RefSpec.dot1_eq,
    Cert.ReferenceIdeal.RefSpec.colE_eq (normR src dst ew), Cert.ReferenceIdeal.RefSpec.colN_eq (mulf (dinvR dst ew) (dinvR dst ew)),
    Cert.ReferenceIdeal.RefSpec.row1_eq b, Cert.KernelIdeal.Take.take1_eq_gather (F := Ideal) _ src hr]
  rfl

end Cert.Bridge

end
-- ==== Proof.lean ====
/-
  A three-layer graph convolution. Each layer transforms the node table by a dense matrix product, gathers the transformed
  rows along the edges' source indices, scales each gathered row by the edge's symmetric normalisation coefficient
  dinv[src] · w · dinv[dst], sums the scaled rows onto the destination nodes, and adds the self loop h · dinv² and the bias
  (followed by max(·, 0) on the two hidden layers). The kernel program does the three dense, regular stages of a layer in tiled
  kernels (row blocks of the node and edge tables) and the gathers and segment sums on the host, as the reference does.

  Over the extended reals the two programs compute the same function of the arguments wherever every source index is a node
  id, 0 ≤ edge_src < 100000 (the precondition's last conjunct): a change of float format is the identity, a matrix product
  accumulated into zero is the plain sum over the contracted axis, and the tiled kernels' row blocks cover their arrays, so
  each kernel region leaves the whole-array function the reference's host operations compute. The one place the programs'
  texts differ in meaning is the row gather: the kernel's take fills the rows of out-of-range indices with a fixed pattern
  while the reference's indexing clamps; on node ids no row is out of range and the two agree.

  The three frames are the generated frame certificates (the reference's: its generated run with the result dropped);
  the idealization rewrote nothing, so `preserves` is trivial.
-/
import proofs.«409193_j64836826301090_2_alg».proof.Defs
import proofs.«409193_j64836826301090_2_alg».proof.Proof.Gen.Kernel
import proofs.«409193_j64836826301090_2_alg».proof.Proof.Gen.Kernel.Skeleton
import proofs.«409193_j64836826301090_2_alg».proof.Proof.Gen.Kernel.Launch
import proofs.«409193_j64836826301090_2_alg».proof.Proof.Gen.Kernel.Points
import proofs.«409193_j64836826301090_2_alg».proof.Proof.Gen.Kernel.Frame
import proofs.«409193_j64836826301090_2_alg».proof.Proof.Gen.KernelIdeal
import proofs.«409193_j64836826301090_2_alg».proof.Proof.Gen.KernelIdeal.Skeleton
import proofs.«409193_j64836826301090_2_alg».proof.Proof.Gen.KernelIdeal.Launch
import proofs.«409193_j64836826301090_2_alg».proof.Proof.Gen.KernelIdeal.Points
import proofs.«409193_j64836826301090_2_alg».proof.Proof.Gen.KernelIdeal.Frame
import proofs.«409193_j64836826301090_2_alg».proof.Proof.Gen.ReferenceIdeal
import proofs.«409193_j64836826301090_2_alg».proof.Proof.Gen.ReferenceIdeal.Run
import proofs.«409193_j64836826301090_2_alg».proof.Proof.Gen.Pre_finite_inputs
import proofs.«409193_j64836826301090_2_alg».proof.Proof.KernelRun
import proofs.«409193_j64836826301090_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, the kernel program's result buffer at the three-layer network of its arguments (the fold of its
    segments), the reference's at its composed term, which is the same network of the same arguments where the source
    indices are node ids. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.Fold.W17_v49 m ρ c), (h c).2⟩)
      (Cert.KernelIdeal.RunValue.run (F := Ideal) m ρ), ?_⟩
  refine (θ_run Cert.ReferenceIdeal.defs _ _).mono (fun r h c => ⟨(h c).1.trans ?_, (h c).2⟩)
    (Cert.ReferenceIdeal.Value.run (F := Ideal) m' ρ')
  have hr := Cert.KernelIdeal.Take.src_in_range (F := Ideal) _ _ _ _ _ _ _ _ _ _ (hpre c)
  obtain ⟨e0, e1, e2, e3, e4, e5, e6, e7, e8, e9⟩ := hagree c
  rw [Cert.Bridge.res_eq, e0, e1, e2, e3, e4, e5, e6, e7, e8, e9,
    Cert.Bridge.layerR_eq _ _ _ _ _ _ hr, Cert.Bridge.layerR_eq _ _ _ _ _ _ hr, Cert.Bridge.lastR_eq _ _ _ _ _ _ hr]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
